-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S10000x128 : Shape := ⟨2, ![10000, 128]⟩
abbrev S128x128 : Shape := ⟨2, ![128, 128]⟩
abbrev S128x16 : Shape := ⟨2, ![128, 16]⟩
abbrev S16 : Shape := ⟨1, ![16]⟩
abbrev S400000 : Shape := ⟨1, ![400000]⟩
abbrev S600000 : Shape := ⟨1, ![600000]⟩
abbrev S200000 : Shape := ⟨1, ![200000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg7 : FVec F S128x128 .f32) (main_arg8 : FVec F S128x128 .f32) (main_arg9 : FVec F S128x16 .f32) (main_arg10 : FVec F S16 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x16 .f32 := Host.absf main_arg9
  let main_cst_16 : FVec F S_ .f32 := constant S_ .f32 0x7F800000#32
  let main_v45 : FVec F S128x16 .f32 := broadcastInDim S128x16 ![] bcast_S_S128x16 main_cst_16
  let main_v46 : IVec S128x16 1 := cmpf .olt main_v44 main_v45
  let main_c_17 : IVec S_ 1 := constantI S_ 1 1#1
  let main_v47 : IVec S_ 1 := (fun x v => Host.reduce IntOp.andi x v reducesTo_S128x16_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg4 : FVec F S128x128 .f32) (main_arg5 : FVec F S128x128 .f32) (main_arg6 : FVec F S128x128 .f32) (main_arg7 : FVec F S128x128 .f32) (main_arg8 : FVec F S128x128 .f32) (main_arg9 : FVec F S128x16 .f32) (main_arg10 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x128 .f32) (main_arg1 : FVec F S50000x128 .f32) (main_arg2 : FVec F S10000x128 .f32) (main_arg3 : FVec F S128x128 .f32) (main_arg4 : FVec F S128x128 .f32) (main_arg5 : FVec F S128x128 .f32) (main_arg6 : FVec F S128x128 .f32) (main_arg7 : FVec F S128x128 .f32) (main_arg8 : FVec F S128x128 .f32) (main_arg9 : FVec F S128x16 .f32) (main_arg10 : FVec F S16 .f32) (main_arg11 : IVec S400000 32) (main_arg12 : IVec S400000 32) (main_arg13 : IVec S400000 32) (main_arg14 : IVec S400000 32) (main_arg15 : IVec S600000 32) (main_arg16 : IVec S600000 32) (main_arg17 : IVec S200000 32) (main_arg18 : IVec S200000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S100000x128 : Shape := ⟨2, ![100000, 128]⟩
abbrev S50000x128 : Shape := ⟨2, ![50000, 128]⟩
abbrev S10000x128 : Shape := ⟨2, ![10000, 128]⟩
abbrev S128x128 : Shape := ⟨2, ![128, 128]⟩
abbrev S128x16 : Shape := ⟨2, ![128, 16]⟩
abbrev S16 : Shape := ⟨1, ![16]⟩
abbrev S400000 : Shape := ⟨1, ![400000]⟩
abbrev S600000 : Shape := ⟨1, ![600000]⟩
abbrev S200000 : Shape := ⟨1, ![200000]⟩
abbrev S_ : Shape := ⟨0, ![]⟩
abbrev S100000 : Shape := ⟨1, ![100000]⟩
abbrev S400000x1 : Shape := ⟨2, ![400000, 1]⟩
abbrev S600000x1 : Shape := ⟨2, ![600000, 1]⟩
abbrev S50000 : Shape := ⟨1, ![50000]⟩
abbrev S5000x128 : Shape := ⟨2, ![5000, 128]⟩
abbrev S400000x128 : Shape := ⟨2, ![400000, 128]⟩
abbrev S100000x1 : Shape := ⟨2, ![100000, 1]⟩
abbrev S600000x128 : Shape := ⟨2, ![600000, 128]⟩
abbrev S50000x1 : Shape := ⟨2, ![50000, 1]⟩
abbrev S1x16 : Shape := ⟨2, ![1, 16]⟩
abbrev S100000x16 : Shape := ⟨2, ![100000, 16]⟩
abbrev S5000x16 : Shape := ⟨2, ![5000, 16]⟩

abbrev nBuf : Space → Nat
  | .hbm => 141
  | .vmem => 36
  | .smem => 0
  | _ => 0

abbrev hbmTy0_0 (i : Nat) : BufTy := match i % 128 with
  | 0 => ⟨S100000x128, .f32⟩
  | 1 => ⟨S50000x128, .f32⟩
  | 2 => ⟨S10000x128, .f32⟩
  | 3 => ⟨S128x128, .f32⟩
  | 4 => ⟨S128x128, .f32⟩
  | 5 => ⟨S128x128, .f32⟩
  | 6 => ⟨S128x128, .f32⟩
  | 7 => ⟨S128x128, .f32⟩
  | 8 => ⟨S128x128, .f32⟩
  | 9 => ⟨S128x16, .f32⟩
  | 10 => ⟨S16, .f32⟩
  | 11 => ⟨S400000, .i32⟩
  | 12 => ⟨S400000, .i32⟩
  | 13 => ⟨S400000, .i32⟩
  | 14 => ⟨S400000, .i32⟩
  | 15 => ⟨S600000, .i32⟩
  | 16 => ⟨S600000, .i32⟩
  | 17 => ⟨S200000, .i32⟩
  | 18 => ⟨S200000, .i32⟩
  | 19 => ⟨S_, .f32⟩
  | 20 => ⟨S400000, .f32⟩
  | 21 => ⟨S_, .f32⟩
  | 22 => ⟨S100000, .f32⟩
  | 23 => ⟨S400000x1, .i32⟩
  | 24 => ⟨S100000, .f32⟩
  | 25 => ⟨S_, .f32⟩
  | 26 => ⟨S100000, .f32⟩
  | 27 => ⟨S100000, .f32⟩
  | 28 => ⟨S_, .f32⟩
  | 29 => ⟨S100000, .f32⟩
  | 30 => ⟨S100000, .f32⟩
  | 31 => ⟨S_, .f32⟩
  | 32 => ⟨S600000, .f32⟩
  | 33 => ⟨S_, .f32⟩
  | 34 => ⟨S100000, .f32⟩
  | 35 => ⟨S600000x1, .i32⟩
  | 36 => ⟨S100000, .f32⟩
  | 37 => ⟨S_, .f32⟩
  | 38 => ⟨S100000, .f32⟩
  | 39 => ⟨S100000, .f32⟩
  | 40 => ⟨S_, .f32⟩
  | 41 => ⟨S100000, .f32⟩
  | 42 => ⟨S100000, .f32⟩
  | 43 => ⟨S_, .f32⟩
  | 44 => ⟨S400000, .f32⟩
  | 45 => ⟨S_, .f32⟩
  | 46 => ⟨S50000, .f32⟩
  | 47 => ⟨S400000x1, .i32⟩
  | 48 => ⟨S50000, .f32⟩
  | 49 => ⟨S_, .f32⟩
  | 50 => ⟨S50000, .f32⟩
  | 51 => ⟨S50000, .f32⟩
  | 52 => ⟨S_, .f32⟩
  | 53 => ⟨S50000, .f32⟩
  | 54 => ⟨S50000, .f32⟩
  | 55 => ⟨S100000x128, .f32⟩
  | 56 => ⟨S50000x128, .f32⟩
  | 57 => ⟨S_, .i32⟩
  | 58 => ⟨S400000, .i32⟩
  | 59 => ⟨S400000, .i1⟩
  | 60 => ⟨S_, .i32⟩
  | 61 => ⟨S400000, .i32⟩
  | 62 => ⟨S400000, .i32⟩
  | 63 => ⟨S400000, .i32⟩
  | 64 => ⟨S400000x1, .i32⟩
  | 65 => ⟨S400000x128, .f32⟩
  | 66 => ⟨S_, .f32⟩
  | 67 => ⟨S100000x128, .f32⟩
  | 68 => ⟨S400000x1, .i32⟩
  | 69 => ⟨S100000x128, .f32⟩
  | 70 => ⟨S100000x1, .f32⟩
  | 71 => ⟨S100000x128, .f32⟩
  | 72 => ⟨S100000x128, .f32⟩
  | 73 => ⟨S_, .i32⟩
  | 74 => ⟨S600000, .i32⟩
  | 75 => ⟨S600000, .i1⟩
  | 76 => ⟨S_, .i32⟩
  | 77 => ⟨S600000, .i32⟩
  | 78 => ⟨S600000, .i32⟩
  | 79 => ⟨S600000, .i32⟩
  | 80 => ⟨S600000x1, .i32⟩
  | 81 => ⟨S600000x128, .f32⟩
  | 82 => ⟨S_, .f32⟩
  | 83 => ⟨S100000x128, .f32⟩
  | 84 => ⟨S600000x1, .i32⟩
  | 85 => ⟨S100000x128, .f32⟩
  | 86 => ⟨S100000x1, .f32⟩
  | 87 => ⟨S100000x128, .f32⟩
  | 88 => ⟨S100000x128, .f32⟩
  | 89 => ⟨S_, .i32⟩
  | 90 => ⟨S400000, .i32⟩
  | 91 => ⟨S400000, .i1⟩
  | 92 => ⟨S_, .i32⟩
  | 93 => ⟨S400000, .i32⟩
  | 94 => ⟨S400000, .i32⟩
  | 95 => ⟨S400000, .i32⟩
  | 96 => ⟨S400000x1, .i32⟩
  | 97 => ⟨S400000x128, .f32⟩
  | 98 => ⟨S_, .f32⟩
  | 99 => ⟨S50000x128, .f32⟩
  | 100 => ⟨S400000x1, .i32⟩
  | 101 => ⟨S50000x128, .f32⟩
  | 102 => ⟨S50000x1, .f32⟩
  | 103 => ⟨S50000x128, .f32⟩
  | 104 => ⟨S50000x128, .f32⟩
  | 105 => ⟨S100000x128, .f32⟩
  | 106 => ⟨S50000x128, .f32⟩
  | 107 => ⟨S_, .i32⟩
  | 108 => ⟨S400000, .i32⟩
  | 109 => ⟨S400000, .i1⟩
  | 110 => ⟨S_, .i32⟩
  | 111 => ⟨S400000, .i32⟩
  | 112 => ⟨S400000, .i32⟩
  | 113 => ⟨S400000, .i32⟩
  | 114 => ⟨S400000x1, .i32⟩
  | 115 => ⟨S400000x128, .f32⟩
  | 116 => ⟨S_, .f32⟩
  | 117 => ⟨S100000x128, .f32⟩
  | 118 => ⟨S400000x1, .i32⟩
  | 119 => ⟨S100000x128, .f32⟩
  | 120 => ⟨S100000x1, .f32⟩
  | 121 => ⟨S100000x128, .f32⟩
  | 122 => ⟨S100000x128, .f32⟩
  | 123 => ⟨S_, .i32⟩
  | 124 => ⟨S600000, .i32⟩
  | 125 => ⟨S600000, .i1⟩
  | 126 => ⟨S_, .i32⟩
  | 127 => ⟨S600000, .i32⟩
  | _ => ⟨S100000x128, .f32⟩

abbrev hbmTy0_1 (i : Nat) : BufTy := match i % 128 with
  | 0 => ⟨S600000, .i32⟩
  | 1 => ⟨S600000, .i32⟩
  | 2 => ⟨S600000x1, .i32⟩
  | 3 => ⟨S600000x128, .f32⟩
  | 4 => ⟨S_, .f32⟩
  | 5 => ⟨S100000x128, .f32⟩
  | 6 => ⟨S600000x1, .i32⟩
  | 7 => ⟨S100000x128, .f32⟩
  | 8 => ⟨S100000x1, .f32⟩
  | 9 => ⟨S100000x128, .f32⟩
  | 10 => ⟨S100000x128, .f32⟩
  | 11 => ⟨S1x16, .f32⟩
  | 12 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x16, .f32⟩
  | .local _ .vmem, ⟨33, _⟩ => ⟨S1x16, .f32⟩
  | .local _ .vmem, ⟨34, _⟩ => ⟨S5000x16, .f32⟩
  | .local _ .vmem, ⟨35, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_cst_0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst_1 : Ref sig .tc := ⟨.hbm, 25, rfl⟩
abbrev main_v4 : Ref sig .tc := ⟨.hbm, 26, rfl⟩
abbrev main_v5 : Ref sig .tc := ⟨.hbm, 27, rfl⟩
abbrev main_cst_2 : Ref sig .tc := ⟨.hbm, 28, rfl⟩
abbrev main_v6 : Ref sig .tc := ⟨.hbm, 29, rfl⟩
abbrev main_v7 : Ref sig .tc := ⟨.hbm, 30, rfl⟩
abbrev main_cst_3 : Ref sig .tc := ⟨.hbm, 31, rfl⟩
abbrev main_v8 : Ref sig .tc := ⟨.hbm, 32, rfl⟩
abbrev main_cst_4 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_5 : Ref sig .tc := ⟨.hbm, 37, rfl⟩
abbrev main_v12 : Ref sig .tc := ⟨.hbm, 38, rfl⟩
abbrev main_v13 : Ref sig .tc := ⟨.hbm, 39, rfl⟩
abbrev main_cst_6 : Ref sig .tc := ⟨.hbm, 40, rfl⟩
abbrev main_v14 : Ref sig .tc := ⟨.hbm, 41, rfl⟩
abbrev main_v15 : Ref sig .tc := ⟨.hbm, 42, rfl⟩
abbrev main_cst_7 : Ref sig .tc := ⟨.hbm, 43, rfl⟩
abbrev main_v16 : Ref sig .tc := ⟨.hbm, 44, rfl⟩
abbrev main_cst_8 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_cst_9 : Ref sig .tc := ⟨.hbm, 49, rfl⟩
abbrev main_v20 : Ref sig .tc := ⟨.hbm, 50, rfl⟩
abbrev main_v21 : Ref sig .tc := ⟨.hbm, 51, rfl⟩
abbrev main_cst_10 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_c : Ref sig .tc := ⟨.hbm, 57, rfl⟩
abbrev main_v26 : Ref sig .tc := ⟨.hbm, 58, rfl⟩
abbrev main_v27 : Ref sig .tc := ⟨.hbm, 59, rfl⟩
abbrev main_c_11 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_12 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_c_13 : Ref sig .tc := ⟨.hbm, 73, rfl⟩
abbrev main_v39 : Ref sig .tc := ⟨.hbm, 74, rfl⟩
abbrev main_v40 : Ref sig .tc := ⟨.hbm, 75, rfl⟩
abbrev main_c_14 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_15 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_c_16 : Ref sig .tc := ⟨.hbm, 89, rfl⟩
abbrev main_v52 : Ref sig .tc := ⟨.hbm, 90, rfl⟩
abbrev main_v53 : Ref sig .tc := ⟨.hbm, 91, rfl⟩
abbrev main_c_17 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_18 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_c_19 : Ref sig .tc := ⟨.hbm, 107, rfl⟩
abbrev main_v67 : Ref sig .tc := ⟨.hbm, 108, rfl⟩
abbrev main_v68 : Ref sig .tc := ⟨.hbm, 109, rfl⟩
abbrev main_c_20 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_21 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_c_22 : Ref sig .tc := ⟨.hbm, 123, rfl⟩
abbrev main_v80 : Ref sig .tc := ⟨.hbm, 124, rfl⟩
abbrev main_v81 : Ref sig .tc := ⟨.hbm, 125, rfl⟩
abbrev main_c_23 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_cst_24 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg5_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem4_0 : DmaSem sig := 33
abbrev cc4_sem5_0 : DmaSem sig := 34
abbrev cc4_sem5_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x16 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x16 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000 : S_.BroadcastsInDim S50000 (![] : Fin 0 → Fin S50000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S5000x128_S5000x128 : S5000x128.ShapeCasts S5000x128
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  scatter_S100000_S400000x1_S400000_n_0_0_1_wf : ScatterDims.WF S100000 S400000x1 S400000 [] [0] [0] 1
  scatter_S100000_S600000x1_S600000_n_0_0_1_wf : ScatterDims.WF S100000 S600000x1 S600000 [] [0] [0] 1
  scatter_S50000_S400000x1_S400000_n_0_0_1_wf : ScatterDims.WF S50000 S400000x1 S400000 [] [0] [0] 1
  dot_S5000x128_S128x128_S5000x128_1_0_0_1_n_n_wf : DotDims.WF S5000x128 S128x128 S5000x128 [1] [0] [0] [1] [] []
  gather_S50000x128_S400000x1_S400000x128_1_0_n_n_0_1_1128_wf : GatherDims.WF S50000x128 S400000x1 S400000x128 [1] [0] [] [0] [] 1 ![1, 128]
  scatter_S100000x128_S400000x1_S400000x128_1_0_0_1_wf : ScatterDims.WF S100000x128 S400000x1 S400000x128 [1] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  gather_S100000x128_S400000x1_S400000x128_1_0_n_n_0_1_1128_wf : GatherDims.WF S100000x128 S400000x1 S400000x128 [1] [0] [] [0] [] 1 ![1, 128]
  scatter_S50000x128_S400000x1_S400000x128_1_0_0_1_wf : ScatterDims.WF S50000x128 S400000x1 S400000x128 [1] [0] [0] 1
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x16.size a ≤ S128x16.size a
  hwx4_3 : ∀ i : grid4.Coords, EltTy.bits .f32 = 32 ∨ (Rect.block (s := S128x16) S128x16.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x16.size a ≤ S1x16.size a
  hwx4_4 : ∀ i : grid4.Coords, EltTy.bits .f32 = 32 ∨ (Rect.block (s := S1x16) S1x16.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x16.size a ≤ S100000x16.size a
  hwx4_5 : ∀ i : grid4.Coords, EltTy.bits .f32 = 32 ∨ (Rect.block (s := S100000x16) S5000x16.size (cc4_transform_5 i) (hinb4_5 i)).WholeWords (EltTy.packing .f32)

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v24) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v51) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v25) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v65) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v79) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v92) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg9) S128x16.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v93) S1x16.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v94) S5000x16.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S10000x128 : Shape := ⟨2, ![10000, 128]⟩
abbrev S128x128 : Shape := ⟨2, ![128, 128]⟩
abbrev S128x16 : Shape := ⟨2, ![128, 16]⟩
abbrev S16 : Shape := ⟨1, ![16]⟩
abbrev S400000 : Shape := ⟨1, ![400000]⟩
abbrev S600000 : Shape := ⟨1, ![600000]⟩
abbrev S200000 : Shape := ⟨1, ![200000]⟩
abbrev S_ : Shape := ⟨0, ![]⟩
abbrev S100000 : Shape := ⟨1, ![100000]⟩
abbrev S400000x1 : Shape := ⟨2, ![400000, 1]⟩
abbrev S400000x128 : Shape := ⟨2, ![400000, 128]⟩
abbrev S100000x1 : Shape := ⟨2, ![100000, 1]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S10000 : Shape := ⟨1, ![10000]⟩
abbrev S200000x1 : Shape := ⟨2, ![200000, 1]⟩
abbrev S200000x128 : Shape := ⟨2, ![200000, 128]⟩
abbrev S10000x1 : Shape := ⟨2, ![10000, 1]⟩
abbrev S100000x16 : Shape := ⟨2, ![100000, 16]⟩
abbrev S1x16 : Shape := ⟨2, ![1, 16]⟩

abbrev nBuf : Space → Nat
  | .hbm => 291
  | .vmem => 0
  | .smem => 0
  | _ => 0

abbrev hbmTy0_0 (i : Nat) : BufTy := match i % 128 with
  | 0 => ⟨S100000x128, .f32⟩
  | 1 => ⟨S50000x128, .f32⟩
  | 2 => ⟨S10000x128, .f32⟩
  | 3 => ⟨S128x128, .f32⟩
  | 4 => ⟨S128x128, .f32⟩
  | 5 => ⟨S128x128, .f32⟩
  | 6 => ⟨S128x128, .f32⟩
  | 7 => ⟨S128x128, .f32⟩
  | 8 => ⟨S128x128, .f32⟩
  | 9 => ⟨S128x16, .f32⟩
  | 10 => ⟨S16, .f32⟩
  | 11 => ⟨S400000, .i32⟩
  | 12 => ⟨S400000, .i32⟩
  | 13 => ⟨S400000, .i32⟩
  | 14 => ⟨S400000, .i32⟩
  | 15 => ⟨S600000, .i32⟩
  | 16 => ⟨S600000, .i32⟩
  | 17 => ⟨S200000, .i32⟩
  | 18 => ⟨S200000, .i32⟩
  | 19 => ⟨S100000x128, .f32⟩
  | 20 => ⟨S_, .f32⟩
  | 21 => ⟨S100000x128, .f32⟩
  | 22 => ⟨S100000x128, .f32⟩
  | 23 => ⟨S50000x128, .f32⟩
  | 24 => ⟨S_, .f32⟩
  | 25 => ⟨S50000x128, .f32⟩
  | 26 => ⟨S50000x128, .f32⟩
  | 27 => ⟨S10000x128, .f32⟩
  | 28 => ⟨S_, .f32⟩
  | 29 => ⟨S10000x128, .f32⟩
  | 30 => ⟨S10000x128, .f32⟩
  | 31 => ⟨S_, .f32⟩
  | 32 => ⟨S400000, .f32⟩
  | 33 => ⟨S_, .f32⟩
  | 34 => ⟨S100000, .f32⟩
  | 35 => ⟨S400000x1, .i32⟩
  | 36 => ⟨S100000, .f32⟩
  | 37 => ⟨S_, .i32⟩
  | 38 => ⟨S400000, .i32⟩
  | 39 => ⟨S400000, .i1⟩
  | 40 => ⟨S_, .i32⟩
  | 41 => ⟨S400000, .i32⟩
  | 42 => ⟨S400000, .i32⟩
  | 43 => ⟨S400000, .i32⟩
  | 44 => ⟨S400000x1, .i32⟩
  | 45 => ⟨S400000x128, .f32⟩
  | 46 => ⟨S_, .f32⟩
  | 47 => ⟨S100000x128, .f32⟩
  | 48 => ⟨S400000x1, .i32⟩
  | 49 => ⟨S100000x128, .f32⟩
  | 50 => ⟨S_, .f32⟩
  | 51 => ⟨S100000, .f32⟩
  | 52 => ⟨S100000, .f32⟩
  | 53 => ⟨S100000x1, .f32⟩
  | 54 => ⟨S100000x128, .f32⟩
  | 55 => ⟨S100000x128, .f32⟩
  | 56 => ⟨S_, .f32⟩
  | 57 => ⟨S600000, .f32⟩
  | 58 => ⟨S_, .f32⟩
  | 59 => ⟨S100000, .f32⟩
  | 60 => ⟨S600000x1, .i32⟩
  | 61 => ⟨S100000, .f32⟩
  | 62 => ⟨S_, .i32⟩
  | 63 => ⟨S600000, .i32⟩
  | 64 => ⟨S600000, .i1⟩
  | 65 => ⟨S_, .i32⟩
  | 66 => ⟨S600000, .i32⟩
  | 67 => ⟨S600000, .i32⟩
  | 68 => ⟨S600000, .i32⟩
  | 69 => ⟨S600000x1, .i32⟩
  | 70 => ⟨S600000x128, .f32⟩
  | 71 => ⟨S_, .f32⟩
  | 72 => ⟨S100000x128, .f32⟩
  | 73 => ⟨S600000x1, .i32⟩
  | 74 => ⟨S100000x128, .f32⟩
  | 75 => ⟨S_, .f32⟩
  | 76 => ⟨S100000, .f32⟩
  | 77 => ⟨S100000, .f32⟩
  | 78 => ⟨S100000x1, .f32⟩
  | 79 => ⟨S100000x128, .f32⟩
  | 80 => ⟨S100000x128, .f32⟩
  | 81 => ⟨S_, .f32⟩
  | 82 => ⟨S400000, .f32⟩
  | 83 => ⟨S_, .f32⟩
  | 84 => ⟨S50000, .f32⟩
  | 85 => ⟨S400000x1, .i32⟩
  | 86 => ⟨S50000, .f32⟩
  | 87 => ⟨S_, .i32⟩
  | 88 => ⟨S400000, .i32⟩
  | 89 => ⟨S400000, .i1⟩
  | 90 => ⟨S_, .i32⟩
  | 91 => ⟨S400000, .i32⟩
  | 92 => ⟨S400000, .i32⟩
  | 93 => ⟨S400000, .i32⟩
  | 94 => ⟨S400000x1, .i32⟩
  | 95 => ⟨S400000x128, .f32⟩
  | 96 => ⟨S_, .f32⟩
  | 97 => ⟨S50000x128, .f32⟩
  | 98 => ⟨S400000x1, .i32⟩
  | 99 => ⟨S50000x128, .f32⟩
  | 100 => ⟨S_, .f32⟩
  | 101 => ⟨S50000, .f32⟩
  | 102 => ⟨S50000, .f32⟩
  | 103 => ⟨S50000x1, .f32⟩
  | 104 => ⟨S50000x128, .f32⟩
  | 105 => ⟨S50000x128, .f32⟩
  | 106 => ⟨S_, .f32⟩
  | 107 => ⟨S200000, .f32⟩
  | 108 => ⟨S_, .f32⟩
  | 109 => ⟨S10000, .f32⟩
  | 110 => ⟨S200000x1, .i32⟩
  | 111 => ⟨S10000, .f32⟩
  | 112 => ⟨S_, .i32⟩
  | 113 => ⟨S200000, .i32⟩
  | 114 => ⟨S200000, .i1⟩
  | 115 => ⟨S_, .i32⟩
  | 116 => ⟨S200000, .i32⟩
  | 117 => ⟨S200000, .i32⟩
  | 118 => ⟨S200000, .i32⟩
  | 119 => ⟨S200000x1, .i32⟩
  | 120 => ⟨S200000x128, .f32⟩
  | 121 => ⟨S_, .f32⟩
  | 122 => ⟨S10000x128, .f32⟩
  | 123 => ⟨S200000x1, .i32⟩
  | 124 => ⟨S10000x128, .f32⟩
  | 125 => ⟨S_, .f32⟩
  | 126 => ⟨S10000, .f32⟩
  | 127 => ⟨S10000, .f32⟩
  | _ => ⟨S100000x128, .f32⟩

abbrev hbmTy0_1 (i : Nat) : BufTy := match i % 128 with
  | 0 => ⟨S10000x1, .f32⟩
  | 1 => ⟨S10000x128, .f32⟩
  | 2 => ⟨S10000x128, .f32⟩
  | 3 => ⟨S_, .f32⟩
  | 4 => ⟨S100000x128, .f32⟩
  | 5 => ⟨S100000x128, .f32⟩
  | 6 => ⟨S100000x128, .f32⟩
  | 7 => ⟨S100000x128, .f32⟩
  | 8 => ⟨S_, .f32⟩
  | 9 => ⟨S100000x128, .f32⟩
  | 10 => ⟨S100000x128, .f32⟩
  | 11 => ⟨S_, .f32⟩
  | 12 => ⟨S50000x128, .f32⟩
  | 13 => ⟨S50000x128, .f32⟩
  | 14 => ⟨S50000x128, .f32⟩
  | 15 => ⟨S_, .f32⟩
  | 16 => ⟨S50000x128, .f32⟩
  | 17 => ⟨S50000x128, .f32⟩
  | 18 => ⟨S_, .f32⟩
  | 19 => ⟨S10000x128, .f32⟩
  | 20 => ⟨S10000x128, .f32⟩
  | 21 => ⟨S10000x128, .f32⟩
  | 22 => ⟨S_, .f32⟩
  | 23 => ⟨S10000x128, .f32⟩
  | 24 => ⟨S10000x128, .f32⟩
  | 25 => ⟨S100000x128, .f32⟩
  | 26 => ⟨S_, .f32⟩
  | 27 => ⟨S100000x128, .f32⟩
  | 28 => ⟨S100000x128, .f32⟩
  | 29 => ⟨S50000x128, .f32⟩
  | 30 => ⟨S_, .f32⟩
  | 31 => ⟨S50000x128, .f32⟩
  | 32 => ⟨S50000x128, .f32⟩
  | 33 => ⟨S10000x128, .f32⟩
  | 34 => ⟨S_, .f32⟩
  | 35 => ⟨S10000x128, .f32⟩
  | 36 => ⟨S10000x128, .f32⟩
  | 37 => ⟨S_, .f32⟩
  | 38 => ⟨S400000, .f32⟩
  | 39 => ⟨S_, .f32⟩
  | 40 => ⟨S100000, .f32⟩
  | 41 => ⟨S400000x1, .i32⟩
  | 42 => ⟨S100000, .f32⟩
  | 43 => ⟨S_, .i32⟩
  | 44 => ⟨S400000, .i32⟩
  | 45 => ⟨S400000, .i1⟩
  | 46 => ⟨S_, .i32⟩
  | 47 => ⟨S400000, .i32⟩
  | 48 => ⟨S400000, .i32⟩
  | 49 => ⟨S400000, .i32⟩
  | 50 => ⟨S400000x1, .i32⟩
  | 51 => ⟨S400000x128, .f32⟩
  | 52 => ⟨S_, .f32⟩
  | 53 => ⟨S100000x128, .f32⟩
  | 54 => ⟨S400000x1, .i32⟩
  | 55 => ⟨S100000x128, .f32⟩
  | 56 => ⟨S_, .f32⟩
  | 57 => ⟨S100000, .f32⟩
  | 58 => ⟨S100000, .f32⟩
  | 59 => ⟨S100000x1, .f32⟩
  | 60 => ⟨S100000x128, .f32⟩
  | 61 => ⟨S100000x128, .f32⟩
  | 62 => ⟨S_, .f32⟩
  | 63 => ⟨S600000, .f32⟩
  | 64 => ⟨S_, .f32⟩
  | 65 => ⟨S100000, .f32⟩
  | 66 => ⟨S600000x1, .i32⟩
  | 67 => ⟨S100000, .f32⟩
  | 68 => ⟨S_, .i32⟩
  | 69 => ⟨S600000, .i32⟩
  | 70 => ⟨S600000, .i1⟩
  | 71 => ⟨S_, .i32⟩
  | 72 => ⟨S600000, .i32⟩
  | 73 => ⟨S600000, .i32⟩
  | 74 => ⟨S600000, .i32⟩
  | 75 => ⟨S600000x1, .i32⟩
  | 76 => ⟨S600000x128, .f32⟩
  | 77 => ⟨S_, .f32⟩
  | 78 => ⟨S100000x128, .f32⟩
  | 79 => ⟨S600000x1, .i32⟩
  | 80 => ⟨S100000x128, .f32⟩
  | 81 => ⟨S_, .f32⟩
  | 82 => ⟨S100000, .f32⟩
  | 83 => ⟨S100000, .f32⟩
  | 84 => ⟨S100000x1, .f32⟩
  | 85 => ⟨S100000x128, .f32⟩
  | 86 => ⟨S100000x128, .f32⟩
  | 87 => ⟨S_, .f32⟩
  | 88 => ⟨S400000, .f32⟩
  | 89 => ⟨S_, .f32⟩
  | 90 => ⟨S50000, .f32⟩
  | 91 => ⟨S400000x1, .i32⟩
  | 92 => ⟨S50000, .f32⟩
  | 93 => ⟨S_, .i32⟩
  | 94 => ⟨S400000, .i32⟩
  | 95 => ⟨S400000, .i1⟩
  | 96 => ⟨S_, .i32⟩
  | 97 => ⟨S400000, .i32⟩
  | 98 => ⟨S400000, .i32⟩
  | 99 => ⟨S400000, .i32⟩
  | 100 => ⟨S400000x1, .i32⟩
  | 101 => ⟨S400000x128, .f32⟩
  | 102 => ⟨S_, .f32⟩
  | 103 => ⟨S50000x128, .f32⟩
  | 104 => ⟨S400000x1, .i32⟩
  | 105 => ⟨S50000x128, .f32⟩
  | 106 => ⟨S_, .f32⟩
  | 107 => ⟨S50000, .f32⟩
  | 108 => ⟨S50000, .f32⟩
  | 109 => ⟨S50000x1, .f32⟩
  | 110 => ⟨S50000x128, .f32⟩
  | 111 => ⟨S50000x128, .f32⟩
  | 112 => ⟨S_, .f32⟩
  | 113 => ⟨S200000, .f32⟩
  | 114 => ⟨S_, .f32⟩
  | 115 => ⟨S10000, .f32⟩
  | 116 => ⟨S200000x1, .i32⟩
  | 117 => ⟨S10000, .f32⟩
  | 118 => ⟨S_, .i32⟩
  | 119 => ⟨S200000, .i32⟩
  | 120 => ⟨S200000, .i1⟩
  | 121 => ⟨S_, .i32⟩
  | 122 => ⟨S200000, .i32⟩
  | 123 => ⟨S200000, .i32⟩
  | 124 => ⟨S200000, .i32⟩
  | 125 => ⟨S200000x1, .i32⟩
  | 126 => ⟨S200000x128, .f32⟩
  | 127 => ⟨S_, .f32⟩
  | _ => ⟨S100000x128, .f32⟩

abbrev hbmTy0_2 (i : Nat) : BufTy := match i % 128 with
  | 0 => ⟨S10000x128, .f32⟩
  | 1 => ⟨S200000x1, .i32⟩
  | 2 => ⟨S10000x128, .f32⟩
  | 3 => ⟨S_, .f32⟩
  | 4 => ⟨S10000, .f32⟩
  | 5 => ⟨S10000, .f32⟩
  | 6 => ⟨S10000x1, .f32⟩
  | 7 => ⟨S10000x128, .f32⟩
  | 8 => ⟨S10000x128, .f32⟩
  | 9 => ⟨S_, .f32⟩
  | 10 => ⟨S100000x128, .f32⟩
  | 11 => ⟨S100000x128, .f32⟩
  | 12 => ⟨S100000x128, .f32⟩
  | 13 => ⟨S100000x128, .f32⟩
  | 14 => ⟨S_, .f32⟩
  | 15 => ⟨S100000x128, .f32⟩
  | 16 => ⟨S100000x128, .f32⟩
  | 17 => ⟨S_, .f32⟩
  | 18 => ⟨S50000x128, .f32⟩
  | 19 => ⟨S50000x128, .f32⟩
  | 20 => ⟨S50000x128, .f32⟩
  | 21 => ⟨S_, .f32⟩
  | 22 => ⟨S50000x128, .f32⟩
  | 23 => ⟨S50000x128, .f32⟩
  | 24 => ⟨S_, .f32⟩
  | 25 => ⟨S10000x128, .f32⟩
  | 26 => ⟨S10000x128, .f32⟩
  | 27 => ⟨S10000x128, .f32⟩
  | 28 => ⟨S_, .f32⟩
  | 29 => ⟨S10000x128, .f32⟩
  | 30 => ⟨S10000x128, .f32⟩
  | 31 => ⟨S100000x16, .f32⟩
  | 32 => ⟨S1x16, .f32⟩
  | 33 => ⟨S100000x16, .f32⟩
  | 34 => ⟨S100000x16, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_call0_cst : Ref sig .tc := ⟨.hbm, 20, rfl⟩
abbrev main_call0_v0 : Ref sig .tc := ⟨.hbm, 21, rfl⟩
abbrev main_v1 : Ref sig .tc := ⟨.hbm, 22, rfl⟩
abbrev main_v2 : Ref sig .tc := ⟨.hbm, 23, rfl⟩
abbrev main_call1_cst : Ref sig .tc := ⟨.hbm, 24, rfl⟩
abbrev main_call1_v0 : Ref sig .tc := ⟨.hbm, 25, rfl⟩
abbrev main_v3 : Ref sig .tc := ⟨.hbm, 26, rfl⟩
abbrev main_v4 : Ref sig .tc := ⟨.hbm, 27, rfl⟩
abbrev main_call2_cst : Ref sig .tc := ⟨.hbm, 28, rfl⟩
abbrev main_call2_v0 : Ref sig .tc := ⟨.hbm, 29, rfl⟩
abbrev main_v5 : Ref sig .tc := ⟨.hbm, 30, rfl⟩
abbrev main_cst : Ref sig .tc := ⟨.hbm, 31, rfl⟩
abbrev main_v6 : Ref sig .tc := ⟨.hbm, 32, rfl⟩
abbrev main_cst_0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_c : Ref sig .tc := ⟨.hbm, 37, rfl⟩
abbrev main_v10 : Ref sig .tc := ⟨.hbm, 38, rfl⟩
abbrev main_v11 : Ref sig .tc := ⟨.hbm, 39, rfl⟩
abbrev main_c_1 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_2 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst_3 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_4 : Ref sig .tc := ⟨.hbm, 56, rfl⟩
abbrev main_v25 : Ref sig .tc := ⟨.hbm, 57, rfl⟩
abbrev main_cst_5 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_c_6 : Ref sig .tc := ⟨.hbm, 62, rfl⟩
abbrev main_v29 : Ref sig .tc := ⟨.hbm, 63, rfl⟩
abbrev main_v30 : Ref sig .tc := ⟨.hbm, 64, rfl⟩
abbrev main_c_7 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_8 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst_9 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_10 : Ref sig .tc := ⟨.hbm, 81, rfl⟩
abbrev main_v44 : Ref sig .tc := ⟨.hbm, 82, rfl⟩
abbrev main_cst_11 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_c_12 : Ref sig .tc := ⟨.hbm, 87, rfl⟩
abbrev main_v48 : Ref sig .tc := ⟨.hbm, 88, rfl⟩
abbrev main_v49 : Ref sig .tc := ⟨.hbm, 89, rfl⟩
abbrev main_c_13 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_cst_14 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_cst_15 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_cst_16 : Ref sig .tc := ⟨.hbm, 106, rfl⟩
abbrev main_v63 : Ref sig .tc := ⟨.hbm, 107, rfl⟩
abbrev main_cst_17 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_c_18 : Ref sig .tc := ⟨.hbm, 112, rfl⟩
abbrev main_v67 : Ref sig .tc := ⟨.hbm, 113, rfl⟩
abbrev main_v68 : Ref sig .tc := ⟨.hbm, 114, rfl⟩
abbrev main_c_19 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_20 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_cst_21 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_cst_22 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_cst_23 : Ref sig .tc := ⟨.hbm, 136, rfl⟩
abbrev main_v86 : Ref sig .tc := ⟨.hbm, 137, rfl⟩
abbrev main_v87 : Ref sig .tc := ⟨.hbm, 138, rfl⟩
abbrev main_cst_24 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_cst_25 : Ref sig .tc := ⟨.hbm, 143, rfl⟩
abbrev main_v91 : Ref sig .tc := ⟨.hbm, 144, rfl⟩
abbrev main_v92 : Ref sig .tc := ⟨.hbm, 145, rfl⟩
abbrev main_cst_26 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_cst_27 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_call3_cst : Ref sig .tc := ⟨.hbm, 154, rfl⟩
abbrev main_call3_v0 : Ref sig .tc := ⟨.hbm, 155, rfl⟩
abbrev main_v99 : Ref sig .tc := ⟨.hbm, 156, rfl⟩
abbrev main_v100 : Ref sig .tc := ⟨.hbm, 157, rfl⟩
abbrev main_call4_cst : Ref sig .tc := ⟨.hbm, 158, rfl⟩
abbrev main_call4_v0 : Ref sig .tc := ⟨.hbm, 159, rfl⟩
abbrev main_v101 : Ref sig .tc := ⟨.hbm, 160, rfl⟩
abbrev main_v102 : Ref sig .tc := ⟨.hbm, 161, rfl⟩
abbrev main_call5_cst : Ref sig .tc := ⟨.hbm, 162, rfl⟩
abbrev main_call5_v0 : Ref sig .tc := ⟨.hbm, 163, rfl⟩
abbrev main_v103 : Ref sig .tc := ⟨.hbm, 164, rfl⟩
abbrev main_cst_28 : Ref sig .tc := ⟨.hbm, 165, rfl⟩
abbrev main_v104 : Ref sig .tc := ⟨.hbm, 166, rfl⟩
abbrev main_cst_29 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_c_30 : Ref sig .tc := ⟨.hbm, 171, rfl⟩
abbrev main_v108 : Ref sig .tc := ⟨.hbm, 172, rfl⟩
abbrev main_v109 : Ref sig .tc := ⟨.hbm, 173, rfl⟩
abbrev main_c_31 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_cst_32 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_cst_33 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_cst_34 : Ref sig .tc := ⟨.hbm, 190, rfl⟩
abbrev main_v123 : Ref sig .tc := ⟨.hbm, 191, rfl⟩
abbrev main_cst_35 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_c_36 : Ref sig .tc := ⟨.hbm, 196, rfl⟩
abbrev main_v127 : Ref sig .tc := ⟨.hbm, 197, rfl⟩
abbrev main_v128 : Ref sig .tc := ⟨.hbm, 198, rfl⟩
abbrev main_c_37 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_cst_38 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_cst_39 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_cst_40 : Ref sig .tc := ⟨.hbm, 215, rfl⟩
abbrev main_v142 : Ref sig .tc := ⟨.hbm, 216, rfl⟩
abbrev main_cst_41 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_c_42 : Ref sig .tc := ⟨.hbm, 221, rfl⟩
abbrev main_v146 : Ref sig .tc := ⟨.hbm, 222, rfl⟩
abbrev main_v147 : Ref sig .tc := ⟨.hbm, 223, rfl⟩
abbrev main_c_43 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_cst_44 : Ref sig .tc := ⟨.hbm, 230, rfl⟩
abbrev main_v153 : Ref sig .tc := ⟨.hbm, 231, rfl⟩
abbrev main_v154 : Ref sig .tc := ⟨.hbm, 232, rfl⟩
abbrev main_v155 : Ref sig .tc := ⟨.hbm, 233, rfl⟩
abbrev main_cst_45 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_cst_46 : Ref sig .tc := ⟨.hbm, 240, rfl⟩
abbrev main_v161 : Ref sig .tc := ⟨.hbm, 241, rfl⟩
abbrev main_cst_47 : Ref sig .tc := ⟨.hbm, 242, rfl⟩
abbrev main_v162 : Ref sig .tc := ⟨.hbm, 243, rfl⟩
abbrev main_v163 : Ref sig .tc := ⟨.hbm, 244, rfl⟩
abbrev main_v164 : Ref sig .tc := ⟨.hbm, 245, rfl⟩
abbrev main_c_48 : Ref sig .tc := ⟨.hbm, 246, rfl⟩
abbrev main_v165 : Ref sig .tc := ⟨.hbm, 247, rfl⟩
abbrev main_v166 : Ref sig .tc := ⟨.hbm, 248, rfl⟩
abbrev main_c_49 : Ref sig .tc := ⟨.hbm, 249, rfl⟩
abbrev main_v167 : Ref sig .tc := ⟨.hbm, 250, rfl⟩
abbrev main_v168 : Ref sig .tc := ⟨.hbm, 251, rfl⟩
abbrev main_v169 : Ref sig .tc := ⟨.hbm, 252, rfl⟩
abbrev main_v170 : Ref sig .tc := ⟨.hbm, 253, rfl⟩
abbrev main_v171 : Ref sig .tc := ⟨.hbm, 254, rfl⟩
abbrev main_cst_50 : Ref sig .tc := ⟨.hbm, 255, rfl⟩
abbrev main_v172 : Ref sig .tc := ⟨.hbm, 256, rfl⟩
abbrev main_v173 : Ref sig .tc := ⟨.hbm, 257, rfl⟩
abbrev main_v174 : Ref sig .tc := ⟨.hbm, 258, rfl⟩
abbrev main_cst_51 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_v178 : Ref sig .tc := ⟨.hbm, 263, rfl⟩
abbrev main_v179 : Ref sig .tc := ⟨.hbm, 264, rfl⟩
abbrev main_cst_52 : Ref sig .tc := ⟨.hbm, 265, rfl⟩
abbrev main_v180 : Ref sig .tc := ⟨.hbm, 266, rfl⟩
abbrev main_v181 : Ref sig .tc := ⟨.hbm, 267, rfl⟩
abbrev main_v182 : Ref sig .tc := ⟨.hbm, 268, rfl⟩
abbrev main_v183 : Ref sig .tc := ⟨.hbm, 269, rfl⟩
abbrev main_cst_53 : Ref sig .tc := ⟨.hbm, 270, rfl⟩
abbrev main_v184 : Ref sig .tc := ⟨.hbm, 271, rfl⟩
abbrev main_v185 : Ref sig .tc := ⟨.hbm, 272, rfl⟩
abbrev main_cst_54 : Ref sig .tc := ⟨.hbm, 273, rfl⟩
abbrev main_v186 : Ref sig .tc := ⟨.hbm, 274, rfl⟩
abbrev main_v187 : Ref sig .tc := ⟨.hbm, 275, rfl⟩
abbrev main_v188 : Ref sig .tc := ⟨.hbm, 276, rfl⟩
abbrev main_cst_55 : Ref sig .tc := ⟨.hbm, 277, rfl⟩
abbrev main_v189 : Ref sig .tc := ⟨.hbm, 278, rfl⟩
abbrev main_v190 : Ref sig .tc := ⟨.hbm, 279, rfl⟩
abbrev main_cst_56 : Ref sig .tc := ⟨.hbm, 280, rfl⟩
abbrev main_v191 : Ref sig .tc := ⟨.hbm, 281, rfl⟩
abbrev main_v192 : Ref sig .tc := ⟨.hbm, 282, rfl⟩
abbrev main_v193 : Ref sig .tc := ⟨.hbm, 283, rfl⟩
abbrev main_cst_57 : Ref sig .tc := ⟨.hbm, 284, rfl⟩
abbrev main_v194 : Ref sig .tc := ⟨.hbm, 285, rfl⟩
abbrev main_v195 : Ref sig .tc := ⟨.hbm, 286, rfl⟩
abbrev main_v196 : Ref sig .tc := ⟨.hbm, 287, rfl⟩
abbrev main_v197 : Ref sig .tc := ⟨.hbm, 288, rfl⟩
abbrev main_v198 : Ref sig .tc := ⟨.hbm, 289, rfl⟩
abbrev main_v199 : Ref sig .tc := ⟨.hbm, 290, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  bcast_S_S50000x128 : S_.BroadcastsInDim S50000x128 (![] : Fin 0 → Fin S50000x128.rank)
  bcast_S_S10000x128 : S_.BroadcastsInDim S10000x128 (![] : Fin 0 → Fin S10000x128.rank)
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S200000 : S_.BroadcastsInDim S200000 (![] : Fin 0 → Fin S200000.rank)
  bcast_S_S10000 : S_.BroadcastsInDim S10000 (![] : Fin 0 → Fin S10000.rank)
  bcast_S200000_S200000x1_0 : S200000.BroadcastsInDim S200000x1 (![0] : Fin 1 → Fin S200000x1.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x128_S128x128_S100000x128_1_0_0_1_n_n_wf : DotDims.WF S100000x128 S128x128 S100000x128 [1] [0] [0] [1] [] []
  dot_S50000x128_S128x128_S50000x128_1_0_0_1_n_n_wf : DotDims.WF S50000x128 S128x128 S50000x128 [1] [0] [0] [1] [] []
  dot_S10000x128_S128x128_S10000x128_1_0_0_1_n_n_wf : DotDims.WF S10000x128 S128x128 S10000x128 [1] [0] [0] [1] [] []
  scatter_S100000_S400000x1_S400000_n_0_0_1_wf : ScatterDims.WF S100000 S400000x1 S400000 [] [0] [0] 1
  gather_S50000x128_S400000x1_S400000x128_1_0_n_n_0_1_1128_wf : GatherDims.WF S50000x128 S400000x1 S400000x128 [1] [0] [] [0] [] 1 ![1, 128]
  scatter_S100000x128_S400000x1_S400000x128_1_0_0_1_wf : ScatterDims.WF S100000x128 S400000x1 S400000x128 [1] [0] [0] 1
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S50000_S400000x1_S400000_n_0_0_1_wf : ScatterDims.WF S50000 S400000x1 S400000 [] [0] [0] 1
  gather_S100000x128_S400000x1_S400000x128_1_0_n_n_0_1_1128_wf : GatherDims.WF S100000x128 S400000x1 S400000x128 [1] [0] [] [0] [] 1 ![1, 128]
  scatter_S50000x128_S400000x1_S400000x128_1_0_0_1_wf : ScatterDims.WF S50000x128 S400000x1 S400000x128 [1] [0] [0] 1
  scatter_S10000_S200000x1_S200000_n_0_0_1_wf : ScatterDims.WF S10000 S200000x1 S200000 [] [0] [0] 1
  gather_S100000x128_S200000x1_S200000x128_1_0_n_n_0_1_1128_wf : GatherDims.WF S100000x128 S200000x1 S200000x128 [1] [0] [] [0] [] 1 ![1, 128]
  scatter_S10000x128_S200000x1_S200000x128_1_0_0_1_wf : ScatterDims.WF S10000x128 S200000x1 S200000x128 [1] [0] [0] 1
  dot_S100000x128_S128x16_S100000x16_1_0_0_1_n_n_wf : DotDims.WF S100000x128 S128x16 S100000x16 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S10000_S200000x1_S200000_n_0_0_1 : ScatterDims S10000 S200000x1 S200000 where
  updateWindowDims := []
  insertedWindowDims := [0]
  scatterDimsToOperandDims := [0]
  indexVectorDim := 1
  wf := scatter_S10000_S200000x1_S200000_n_0_0_1_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def scatter_S10000x128_S200000x1_S200000x128_1_0_0_1 : ScatterDims S10000x128 S200000x1 S200000x128 where
  updateWindowDims := [1]
  insertedWindowDims := [0]
  scatterDimsToOperandDims := [0]
  indexVectorDim := 1
  wf := scatter_S10000x128_S200000x1_S200000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.Net.lean ====
/-
  The two-layer message-passing network over three node tables (papers, authors; the field table never reaches the
  result), written once as whole-array operations: a dense layer relu(X·W), the per-relation mean aggregation
  (rows of a source table gathered along the edges, summed into the destination rows, each row divided by its
  in-degree plus a small constant), the self-loop combine (one tenth of the node's own row plus its aggregates,
  divided by the number of terms), and the output projection.  The result is
      out = comb3(h1P, aggPw h1A, aggPc h1P) · W_out + b_out
  with h1P = relu(comb3(h0P, aggPw h0A, aggPc h0P) · W_paper_1), h1A = relu(comb2(h0A, aggA h0P) · W_author_1),
  h0P = relu(x_paper · W_paper_0), h0A = relu(x_author · W_author_0).
-/
import proofs.«417135_j31636729102833_2_alg».proof.Proof.Gen.ReferenceIdeal

noncomputable section

namespace Cert.Net

open Idealize.ShloMosaic Cert.ReferenceIdeal
open Cert.ReferenceIdeal.Facts₀ Cert.ReferenceIdeal.Facts

variable {F : FTy → Type} [FloatOps F]

/-- The paper table's shape, the author table's, a weight's. -/
abbrev TP (F : FTy → Type) := FVec F S100000x128 .f32
abbrev TA (F : FTy → Type) := FVec F S50000x128 .f32
abbrev TW (F : FTy → Type) := FVec F S128x128 .f32

/-- A negative edge endpoint counts from the end of a table of n rows (once). -/
def wrap4 (n : BitVec 32) (s : IVec S400000 32) : IVec S400000 32 :=
  select (cmpi .slt s (broadcastInDim S400000 ![] bcast_S_S400000 (constantI S_ 32 0#32)))
    (addi s (broadcastInDim S400000 ![] bcast_S_S400000 (constantI S_ 32 n))) s
def wrap6 (n : BitVec 32) (s : IVec S600000 32) : IVec S600000 32 :=
  select (cmpi .slt s (broadcastInDim S600000 ![] bcast_S_S600000 (constantI S_ 32 0#32)))
    (addi s (broadcastInDim S600000 ![] bcast_S_S600000 (constantI S_ 32 n))) s

def zerosP : TP F := broadcastInDim S100000x128 ![] bcast_S_S100000x128 (constant S_ .f32 0x00000000#32)
def zerosA : TA F := broadcastInDim S50000x128 ![] bcast_S_S50000x128 (constant S_ .f32 0x00000000#32)

/-- The dense layer relu(X·W) on the paper table and on the author table. -/
def featP (X : TP F) (W : TW F) : TP F :=
  maximumf (Host.dotGeneral dot_S100000x128_S128x128_S100000x128_1_0_0_1_n_n none X W) zerosP
def featA (X : TA F) (W : TW F) : TA F :=
  maximumf (Host.dotGeneral dot_S50000x128_S128x128_S50000x128_1_0_0_1_n_n none X W) zerosA

/-- In-degree plus the small constant: per destination paper over the authorship edges (w) and the citation edges (c),
    per destination author over the reverse authorship edges (b). -/
def degPw (d : IVec S400000 32) : FVec F S100000 .f32 :=
  addf (Host.scatterAdd scatter_S100000_S400000x1_S400000_n_0_0_1
      (broadcastInDim S100000 ![] bcast_S_S100000 (constant S_ .f32 0x00000000#32))
      (broadcastInDim S400000x1 ![0] bcast_S400000_S400000x1_0 d)
      (broadcastInDim S400000 ![] bcast_S_S400000 (constant S_ .f32 0x3F800000#32)))
    (broadcastInDim S100000 ![] bcast_S_S100000 (constant S_ .f32 0x38D1B717#32))
def degPc (d : IVec S600000 32) : FVec F S100000 .f32 :=
  addf (Host.scatterAdd scatter_S100000_S600000x1_S600000_n_0_0_1
      (broadcastInDim S100000 ![] bcast_S_S100000 (constant S_ .f32 0x00000000#32))
      (broadcastInDim S600000x1 ![0] bcast_S600000_S600000x1_0 d)
      (broadcastInDim S600000 ![] bcast_S_S600000 (constant S_ .f32 0x3F800000#32)))
    (broadcastInDim S100000 ![] bcast_S_S100000 (constant S_ .f32 0x38D1B717#32))
def degA (d : IVec S400000 32) : FVec F S50000 .f32 :=
  addf (Host.scatterAdd scatter_S50000_S400000x1_S400000_n_0_0_1
      (broadcastInDim S50000 ![] bcast_S_S50000 (constant S_ .f32 0x00000000#32))
      (broadcastInDim S400000x1 ![0] bcast_S400000_S400000x1_0 d)
      (broadcastInDim S400000 ![] bcast_S_S400000 (constant S_ .f32 0x3F800000#32)))
    (broadcastInDim S50000 ![] bcast_S_S50000 (constant S_ .f32 0x38D1B717#32))

/-- The source table's rows gathered along the edges and summed into the destination rows. -/
def sumPw (H : TA F) (s d : IVec S400000 32) : TP F :=
  Host.scatterAdd scatter_S100000x128_S400000x1_S400000x128_1_0_0_1 zerosP
    (broadcastInDim S400000x1 ![0] bcast_S400000_S400000x1_0 d)
    (Host.gather gather_S50000x128_S400000x1_S400000x128_1_0_n_n_0_1_1128 H
      (broadcastInDim S400000x1 ![0] bcast_S400000_S400000x1_0 (wrap4 50000#32 s)))
def sumPc (H : TP F) (s d : IVec S600000 32) : TP F :=
  Host.scatterAdd scatter_S100000x128_S600000x1_S600000x128_1_0_0_1 zerosP
    (broadcastInDim S600000x1 ![0] bcast_S600000_S600000x1_0 d)
    (Host.gather gather_S100000x128_S600000x1_S600000x128_1_0_n_n_0_1_1128 H
      (broadcastInDim S600000x1 ![0] bcast_S600000_S600000x1_0 (wrap6 100000#32 s)))
def sumA (H : TP F) (s d : IVec S400000 32) : TA F :=
  Host.scatterAdd scatter_S50000x128_S400000x1_S400000x128_1_0_0_1 zerosA
    (broadcastInDim S400000x1 ![0] bcast_S400000_S400000x1_0 d)
    (Host.gather gather_S100000x128_S400000x1_S400000x128_1_0_n_n_0_1_1128 H
      (broadcastInDim S400000x1 ![0] bcast_S400000_S400000x1_0 (wrap4 100000#32 s)))

/-- A per-row scalar repeated along the 128 columns. -/
def rowsP (v : FVec F S100000 .f32) : TP F :=
  broadcastInDim S100000x128 ![0, 1] bcast_S100000x1_S100000x128_0_1 (broadcastInDim S100000x1 ![0] bcast_S100000_S100000x1_0 v)
def rowsA (v : FVec F S50000 .f32) : TA F :=
  broadcastInDim S50000x128 ![0, 1] bcast_S50000x1_S50000x128_0_1 (broadcastInDim S50000x1 ![0] bcast_S50000_S50000x1_0 v)

/-- The mean aggregations: the summed rows divided by the destination's in-degree plus the small constant. -/
def aggPw (H : TA F) (s d : IVec S400000 32) : TP F := Host.divf (sumPw H s d) (rowsP (degPw d))
def aggPc (H : TP F) (s d : IVec S600000 32) : TP F := Host.divf (sumPc H s d) (rowsP (degPc d))
def aggA (H : TP F) (s d : IVec S400000 32) : TA F := Host.divf (sumA H s d) (rowsA (degA d))

/-- The reciprocal of each row's divisor (one over it). -/
def invP (D : FVec F S100000 .f32) : FVec F S100000 .f32 :=
  Host.divf (broadcastInDim S100000 ![] bcast_S_S100000 (constant S_ .f32 0x3F800000#32)) D
def invA (D : FVec F S50000 .f32) : FVec F S50000 .f32 :=
  Host.divf (broadcastInDim S50000 ![] bcast_S_S50000 (constant S_ .f32 0x3F800000#32)) D

/-- The self-loop combine: a tenth of the node's own row plus its aggregates, over the number of terms. -/
def comb3 (H A1 A2 : TP F) : TP F :=
  Host.divf (addf (addf (mulf (broadcastInDim S100000x128 ![] bcast_S_S100000x128 (constant S_ .f32 0x3DCCCCCD#32)) H) A1) A2)
    (broadcastInDim S100000x128 ![] bcast_S_S100000x128 (constant S_ .f32 0x40400000#32))
def comb2 (H A1 : TA F) : TA F :=
  Host.divf (addf (mulf (broadcastInDim S50000x128 ![] bcast_S_S50000x128 (constant S_ .f32 0x3DCCCCCD#32)) H) A1)
    (broadcastInDim S50000x128 ![] bcast_S_S50000x128 (constant S_ .f32 0x40000000#32))

/-- The output projection H·W_out + b_out. -/
def outP (H : TP F) (W : FVec F S128x16 .f32) (b : FVec F S16 .f32) : FVec F S100000x16 .f32 :=
  addf (Host.dotGeneral dot_S100000x128_S128x16_S100000x16_1_0_0_1_n_n none H W)
    (broadcastInDim S100000x16 ![0, 1] bcast_S1x16_S100000x16_0_1 (broadcastInDim S1x16 ![1] bcast_S16_S1x16_1 b))

section net
variable (xP : TP F) (xA : TA F) (wP0 wP1 wA0 wA1 : TW F) (wO : FVec F S128x16 .f32) (bO : FVec F S16 .f32)
  (sW dW sB dB : IVec S400000 32) (sC dC : IVec S600000 32)

def h0P : TP F := featP xP wP0
def h0A : TA F := featA xA wA0
def a0Pw : TP F := aggPw (h0A xA wA0) sW dW
def a0Pc : TP F := aggPc (h0P xP wP0) sC dC
def a0A : TA F := aggA (h0P xP wP0) sB dB
def h1P : TP F := featP (comb3 (h0P xP wP0) (a0Pw xA wA0 sW dW) (a0Pc xP wP0 sC dC)) wP1
def h1A : TA F := featA (comb2 (h0A xA wA0) (a0A xP wP0 sB dB)) wA1
def a1Pw : TP F := aggPw (h1A xP xA wP0 wA0 wA1 sB dB) sW dW
def a1Pc : TP F := aggPc (h1P xP xA wP0 wP1 wA0 sW dW sC dC) sC dC
/-- The network's result. -/
def net : FVec F S100000x16 .f32 :=
  outP (comb3 (h1P xP xA wP0 wP1 wA0 sW dW sC dC) (a1Pw xP xA wP0 wA0 wA1 sW dW sB dB) (a1Pc xP xA wP0 wP1 wA0 sW dW sC dC)) wO bO
end net

end Cert.Net

end
-- ==== Proof.Stretch.lean ====
/-
  The three stretches of host operations between the kernel regions, each read as whole-array functions of the
  buffers it starts from (a valuation W): the reciprocals of the in-degrees; the first layer's three mean
  aggregations in product form (summed rows times the reciprocal of the divisor); the second layer's two, and the
  bias re-laid as one row.  A buffer no operation of a stretch writes keeps its contents.
-/
import proofs.«417135_j31636729102833_2_alg».proof.Proof.Gen.KernelIdeal.Launch
import proofs.«417135_j31636729102833_2_alg».proof.Proof.Net
import Idealize.ShloMosaic.Lib.StableHlo.Run
import Idealize.ShloMosaic.Lib.ValueIdx
import Idealize.ShloMosaic.Lib.ValueLayout

noncomputable section

namespace Cert.KernelIdeal.Stretch

open Idealize.ShloMosaic Idealize.ShloMosaic.TcCoe Idealize.SL.Sem Idealize.ShloMosaic.StableHlo
open Cert.KernelIdeal Cert.KernelIdeal.Gen

variable (W : Valuation τ sig (Elt Ideal))

/-! ## Before the first region: the reciprocal in-degrees -/

theorem s0_v7 : (StableHlo.after (hostOps0 (F := Ideal)) W (Proc.devRef .tc main_v7) : FVec Ideal S100000 .f32)
    = Cert.Net.invP (F := Ideal) (Cert.Net.degPw (F := Ideal) (W (Proc.devRef .tc main_arg12) : IVec S400000 32)) := by
  after_results_simp
  rfl
theorem s0_v15 : (StableHlo.after (hostOps0 (F := Ideal)) W (Proc.devRef .tc main_v15) : FVec Ideal S100000 .f32)
    = Cert.Net.invP (F := Ideal) (Cert.Net.degPc (F := Ideal) (W (Proc.devRef .tc main_arg16) : IVec S600000 32)) := by
  after_results_simp
  rfl
theorem s0_v23 : (StableHlo.after (hostOps0 (F := Ideal)) W (Proc.devRef .tc main_v23) : FVec Ideal S50000 .f32)
    = Cert.Net.invA (F := Ideal) (Cert.Net.degA (F := Ideal) (W (Proc.devRef .tc main_arg14) : IVec S400000 32)) := by
  after_results_simp
  rfl
/-- The stretch writes none of @main's arguments. -/
theorem s0_keep (b : Ref sig .tc) (hb : b ∈ ([main_arg0, main_arg1, main_arg3, main_arg4, main_arg5, main_arg6, main_arg9, main_arg10,
      main_arg11, main_arg12, main_arg13, main_arg14, main_arg15, main_arg16] : List (Ref sig .tc))) :
    StableHlo.after (hostOps0 (F := Ideal)) W (Proc.devRef .tc b) = W (Proc.devRef .tc b) := by
  refine StableHlo.after_of_forall_not_mem (b := Proc.devRef .tc b) _ _ (List.forall_iff_forall_mem.mp ?_)
  simp only [List.mem_cons, List.mem_singleton, List.not_mem_nil, or_false] at hb
  rcases hb with rfl | rfl | rfl | rfl | rfl | rfl | rfl | rfl | rfl | rfl | rfl | rfl | rfl | rfl
  all_goals
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)

/-! ## Between the first and the second layer's regions: the three aggregations, in product form -/

theorem s2_v38 : (StableHlo.after (hostOps2 (F := Ideal)) W (Proc.devRef .tc main_v38) : FVec Ideal S100000x128 .f32)
    = mulf (Cert.Net.sumPw (F := Ideal) (W (Proc.devRef .tc main_v25) : FVec Ideal S50000x128 .f32) (W (Proc.devRef .tc main_arg11) : IVec S400000 32) (W (Proc.devRef .tc main_arg12) : IVec S400000 32))
        (Cert.Net.rowsP (F := Ideal) (W (Proc.devRef .tc main_v7) : FVec Ideal S100000 .f32)) := by
  after_results_simp
  rfl
theorem s2_v51 : (StableHlo.after (hostOps2 (F := Ideal)) W (Proc.devRef .tc main_v51) : FVec Ideal S100000x128 .f32)
    = mulf (Cert.Net.sumPc (F := Ideal) (W (Proc.devRef .tc main_v24) : FVec Ideal S100000x128 .f32) (W (Proc.devRef .tc main_arg15) : IVec S600000 32) (W (Proc.devRef .tc main_arg16) : IVec S600000 32))
        (Cert.Net.rowsP (F := Ideal) (W (Proc.devRef .tc main_v15) : FVec Ideal S100000 .f32)) := by
  after_results_simp
  rfl
theorem s2_v64 : (StableHlo.after (hostOps2 (F := Ideal)) W (Proc.devRef .tc main_v64) : FVec Ideal S50000x128 .f32)
    = mulf (Cert.Net.sumA (F := Ideal) (W (Proc.devRef .tc main_v24) : FVec Ideal S100000x128 .f32) (W (Proc.devRef .tc main_arg13) : IVec S400000 32) (W (Proc.devRef .tc main_arg14) : IVec S400000 32))
        (Cert.Net.rowsA (F := Ideal) (W (Proc.devRef .tc main_v23) : FVec Ideal S50000 .f32)) := by
  after_results_simp
  rfl
/-- The stretch writes none of the buffers read after it. -/
theorem s2_keep (b : Ref sig .tc) (hb : b ∈ ([main_v24, main_v25, main_v7, main_v15, main_arg4, main_arg6, main_arg9, main_arg10,
      main_arg11, main_arg12, main_arg15, main_arg16] : List (Ref sig .tc))) :
    StableHlo.after (hostOps2 (F := Ideal)) W (Proc.devRef .tc b) = W (Proc.devRef .tc b) := by
  refine StableHlo.after_of_forall_not_mem (b := Proc.devRef .tc b) _ _ (List.forall_iff_forall_mem.mp ?_)
  simp only [List.mem_cons, List.mem_singleton, List.not_mem_nil, or_false] at hb
  rcases hb with rfl | rfl | rfl | rfl | rfl | rfl | rfl | rfl | rfl | rfl | rfl | rfl
  all_goals
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)

/-! ## Before the last region: the second layer's two aggregations, and the bias as one row -/

theorem s4_v79 : (StableHlo.after (hostOps4 (F := Ideal)) W (Proc.devRef .tc main_v79) : FVec Ideal S100000x128 .f32)
    = mulf (Cert.Net.sumPw (F := Ideal) (W (Proc.devRef .tc main_v66) : FVec Ideal S50000x128 .f32) (W (Proc.devRef .tc main_arg11) : IVec S400000 32) (W (Proc.devRef .tc main_arg12) : IVec S400000 32))
        (Cert.Net.rowsP (F := Ideal) (W (Proc.devRef .tc main_v7) : FVec Ideal S100000 .f32)) := by
  after_results_simp
  rfl
theorem s4_v92 : (StableHlo.after (hostOps4 (F := Ideal)) W (Proc.devRef .tc main_v92) : FVec Ideal S100000x128 .f32)
    = mulf (Cert.Net.sumPc (F := Ideal) (W (Proc.devRef .tc main_v65) : FVec Ideal S100000x128 .f32) (W (Proc.devRef .tc main_arg15) : IVec S600000 32) (W (Proc.devRef .tc main_arg16) : IVec S600000 32))
        (Cert.Net.rowsP (F := Ideal) (W (Proc.devRef .tc main_v15) : FVec Ideal S100000 .f32)) := by
  after_results_simp
  rfl
/-- The bias vector re-laid as a 1 x 16 row: entry (0, q) is entry q. -/
theorem s4_v93 (y : S1x16.Idx) : (StableHlo.after (hostOps4 (F := Ideal)) W (Proc.devRef .tc main_v93) : FVec Ideal S1x16 .f32) y
    = (W (Proc.devRef .tc main_arg10) : FVec Ideal S16 .f32) (ValueIdx.ix1 (y 1)) := by
  after_results_simp
  rw [ValueIdx.eq_ix2 y]
  exact ValueIdx.shapeCast_a_1a_apply _ _ _ _
theorem s4_keep (b : Ref sig .tc) (hb : b ∈ ([main_v65, main_arg9] : List (Ref sig .tc))) :
    StableHlo.after (hostOps4 (F := Ideal)) W (Proc.devRef .tc b) = W (Proc.devRef .tc b) := by
  refine StableHlo.after_of_forall_not_mem (b := Proc.devRef .tc b) _ _ (List.forall_iff_forall_mem.mp ?_)
  simp only [List.mem_cons, List.mem_singleton, List.not_mem_nil, or_false] at hb
  rcases hb with rfl | rfl
  all_goals
    simp only [hostOps4, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)

end Cert.KernelIdeal.Stretch

end
-- ==== Proof.Consts.lean ====
/-
  The float constants the two programs spell, as the extended reals their patterns denote: 0, 1, 2, 3, one half, and
  the small positive constant added to every in-degree.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_three : Ideal.ofBits .f32 0x40400000#32 = ((3 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

/-- The constant added to every in-degree is a positive real. -/
theorem ofBits_eps : ∃ e : ℝ, 0 < e ∧ Ideal.ofBits .f32 0x38D1B717#32 = (e : EReal) := by
  refine ⟨13743895 / 137438953472, by norm_num, ?_⟩
  simp [Ideal.ofBits, Ideal.ieee, -EReal.coe_mul]; norm_num

end Cert.Consts

end
-- ==== Proof.MeanLaw.lean ====
/-
  Multiplying a row by the reciprocal of its divisor is dividing the row by the divisor, wherever the divisor is not
  zero; and an in-degree plus the small positive constant is never zero (it is a sum of ones plus a positive real).
-/
import proofs.«417135_j31636729102833_2_alg».proof.Proof.Net
import proofs.«417135_j31636729102833_2_alg».proof.Proof.Consts
import Idealize.ShloMosaic.Lib.ValueIdx

noncomputable section

namespace Cert.Net

open Idealize.ShloMosaic Idealize.ShloMosaic.ValueIdx Cert.ReferenceIdeal
open Cert.ReferenceIdeal.Facts₀ Cert.ReferenceIdeal.Facts

/-- A per-row scalar repeated along the columns, read at an entry, is the scalar of that entry's row. -/
theorem rowsP_apply {F : FTy → Type} [FloatOps F] (v : FVec F S100000 .f32) (i : S100000x128.Idx) :
    rowsP v i = v (ix1 (i 0)) := by
  unfold rowsP broadcastInDim
  refine congrArg v (funext fun a => ?_)
  match a with
  | ⟨0, _⟩ => rfl

theorem rowsA_apply {F : FTy → Type} [FloatOps F] (v : FVec F S50000 .f32) (i : S50000x128.Idx) :
    rowsA v i = v (ix1 (i 0)) := by
  unfold rowsA broadcastInDim
  refine congrArg v (funext fun a => ?_)
  match a with
  | ⟨0, _⟩ => rfl

/-- On the extended reals, s · (1 / d) = s / d wherever d ≠ 0: both are s · d⁻¹. -/
theorem mul_div_one (s d : EReal) (hd : d ≠ 0) :
    s * Ideal.div (Ideal.ofBits .f32 0x3F800000#32) d = Ideal.div s d := by
  rw [Cert.Consts.ofBits_one, Ideal.div, Ideal.div, if_neg hd, if_neg hd, one_mul]

theorem mul_invP (S : TP Ideal) (D : FVec Ideal S100000 .f32) (hD : ∀ n, D n ≠ 0) :
    mulf S (rowsP (invP D)) = Host.divf S (rowsP D) := by
  funext i
  show S i * rowsP (invP D) i = Ideal.div (S i) (rowsP D i)
  rw [rowsP_apply, rowsP_apply]
  exact mul_div_one (S i) (D (ix1 (i 0))) (hD _)

theorem mul_invA (S : TA Ideal) (D : FVec Ideal S50000 .f32) (hD : ∀ n, D n ≠ 0) :
    mulf S (rowsA (invA D)) = Host.divf S (rowsA D) := by
  funext i
  show S i * rowsA (invA D) i = Ideal.div (S i) (rowsA D i)
  rw [rowsA_apply, rowsA_apply]
  exact mul_div_one (S i) (D (ix1 (i 0))) (hD _)

/-- An accumulating scatter of nonnegative updates into a nonnegative operand is nonnegative at every entry:
    the entry is the operand's plus a sum of updates. -/
theorem scatterAdd_nonneg {s si su : Shape} (d : ScatterDims s si su) {w : Nat} (x : FVec Ideal s .f32)
    (idx : IVec si w) (upd : FVec Ideal su .f32) (hx : ∀ i, (0 : EReal) ≤ x i) (hu : ∀ j, (0 : EReal) ≤ upd j)
    (i : s.Idx) : (0 : EReal) ≤ Host.scatterAdd d x idx upd i := by
  show (0 : EReal) ≤ x i + ∑ j ∈ Finset.univ.filter (fun j => d.resultIdx? j idx = some i), upd j
  exact add_nonneg (hx i) (Finset.sum_nonneg fun j _ => hu j)

/-- A nonnegative extended real plus the small positive constant is not zero. -/
theorem add_eps_ne_zero (a : EReal) (ha : 0 ≤ a) : a + Ideal.ofBits .f32 0x38D1B717#32 ≠ 0 := by
  obtain ⟨e, he, hE⟩ := Cert.Consts.ofBits_eps
  rw [hE]
  exact (lt_of_lt_of_le (EReal.coe_pos.mpr he) (le_add_of_nonneg_left ha)).ne'

theorem zero_splat_nonneg {s : Shape} (h : S_.BroadcastsInDim s ![]) (i : s.Idx) :
    (0 : EReal) ≤ (broadcastInDim s ![] h (constant (F := Ideal) S_ .f32 0x00000000#32) : FVec Ideal s .f32) i := by
  show (0 : EReal) ≤ Ideal.ofBits .f32 0x00000000#32
  rw [Cert.Consts.ofBits_zero]

theorem one_splat_nonneg {s : Shape} (h : S_.BroadcastsInDim s ![]) (i : s.Idx) :
    (0 : EReal) ≤ (broadcastInDim s ![] h (constant (F := Ideal) S_ .f32 0x3F800000#32) : FVec Ideal s .f32) i := by
  show (0 : EReal) ≤ Ideal.ofBits .f32 0x3F800000#32
  rw [Cert.Consts.ofBits_one]; exact zero_le_one

theorem degPw_ne_zero (d : IVec S400000 32) (n : S100000.Idx) : degPw (F := Ideal) d n ≠ 0 := by
  unfold degPw
  rw [addf_apply]
  exact add_eps_ne_zero _ (scatterAdd_nonneg _ _ _ _ (zero_splat_nonneg _) (one_splat_nonneg _) n)

theorem degPc_ne_zero (d : IVec S600000 32) (n : S100000.Idx) : degPc (F := Ideal) d n ≠ 0 := by
  unfold degPc
  rw [addf_apply]
  exact add_eps_ne_zero _ (scatterAdd_nonneg _ _ _ _ (zero_splat_nonneg _) (one_splat_nonneg _) n)

theorem degA_ne_zero (d : IVec S400000 32) (n : S50000.Idx) : degA (F := Ideal) d n ≠ 0 := by
  unfold degA
  rw [addf_apply]
  exact add_eps_ne_zero _ (scatterAdd_nonneg _ _ _ _ (zero_splat_nonneg _) (one_splat_nonneg _) n)

end Cert.Net

end
-- ==== Proof.DenseAt.lean ====
/-
  A plain matrix product (rows x contraction times contraction x columns, no batch axis) read at an output index:
  the sum over the contraction coordinate k of lhs(r, k) * rhs(k, c), for any extents.
-/
import Idealize.ShloMosaic.PureOps.Ideal.Laws
import Idealize.ShloMosaic.Lib.ValueIdx

noncomputable section

namespace Cert.DenseAt

open Idealize.ShloMosaic Idealize.ShloMosaic.ValueIdx

/-- The left operand's row coordinate is the output's row coordinate. -/
theorem lhs_axis0 {M K N : Nat} (d : DotDims ⟨2, ![M, K]⟩ ⟨2, ![K, N]⟩ ⟨2, ![M, N]⟩)
    (hln : d.lhsNonContracting = [0]) (hlb : d.lhsBatch = [])
    (j : (⟨2, ![M, N]⟩ : Shape).Idx) (q : d.contr.Idx) :
    (d.lhsIdx j q 0).val = (j 0).val := by
  obtain ⟨lc, rc, ln, rn, lb, rb, wf⟩ := d
  dsimp only at hln hlb
  subst hln hlb
  unfold DotDims.lhsIdx
  rw [dif_neg (show ¬(0 : Fin (⟨2, ![M, K]⟩ : Shape).rank) ∈ ([] : List (Fin (⟨2, ![M, K]⟩ : Shape).rank)) from List.not_mem_nil),
    dif_pos (show (0 : Fin (⟨2, ![M, K]⟩ : Shape).rank) ∈ ([0] : List (Fin (⟨2, ![M, K]⟩ : Shape).rank)) from List.mem_singleton.mpr rfl)]
  rfl

/-- The left operand's column coordinate is the contraction coordinate. -/
theorem lhs_axis1 {M K N : Nat} (d : DotDims ⟨2, ![M, K]⟩ ⟨2, ![K, N]⟩ ⟨2, ![M, N]⟩)
    (hlc : d.lhsContracting = [1])
    (j : (⟨2, ![M, N]⟩ : Shape).Idx) (q : d.contr.Idx) :
    (d.lhsIdx j q 1).val = (q ⟨0, by rw [d.rank_contr, hlc]; exact Nat.one_pos⟩).val :=
  d.lhsIdx_val_of_single hlc j q

/-- The right operand's row coordinate is the contraction coordinate. -/
theorem rhs_axis0 {M K N : Nat} (d : DotDims ⟨2, ![M, K]⟩ ⟨2, ![K, N]⟩ ⟨2, ![M, N]⟩)
    (hrc : d.rhsContracting = [0])
    (j : (⟨2, ![M, N]⟩ : Shape).Idx) (q : d.contr.Idx) :
    (d.rhsIdx j q 0).val = (q ⟨0, by rw [d.rank_contr, ← d.length_contracting, hrc]; exact Nat.one_pos⟩).val :=
  d.rhsIdx_val_of_single hrc j q

/-- The right operand's column coordinate is the output's column coordinate. -/
theorem rhs_axis1 {M K N : Nat} (d : DotDims ⟨2, ![M, K]⟩ ⟨2, ![K, N]⟩ ⟨2, ![M, N]⟩)
    (hln : d.lhsNonContracting = [0]) (hrn : d.rhsNonContracting = [1]) (hlb : d.lhsBatch = []) (hrb : d.rhsBatch = [])
    (j : (⟨2, ![M, N]⟩ : Shape).Idx) (q : d.contr.Idx) :
    (d.rhsIdx j q 1).val = (j 1).val := by
  obtain ⟨lc, rc, ln, rn, lb, rb, wf⟩ := d
  dsimp only at hln hrn hlb hrb
  subst hln hrn hlb hrb
  unfold DotDims.rhsIdx
  rw [dif_neg (show ¬(1 : Fin (⟨2, ![K, N]⟩ : Shape).rank) ∈ ([] : List (Fin (⟨2, ![K, N]⟩ : Shape).rank)) from List.not_mem_nil),
    dif_pos (show (1 : Fin (⟨2, ![K, N]⟩ : Shape).rank) ∈ ([1] : List (Fin (⟨2, ![K, N]⟩ : Shape).rank)) from List.mem_singleton.mpr rfl)]
  rfl

/-- The sum over the contraction shape of a plain product is the sum over the contraction coordinate. -/
theorem sum_plain {M K N : Nat} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (lhs : (⟨2, ![M, K]⟩ : Shape).Idx → EReal) (rhs : (⟨2, ![K, N]⟩ : Shape).Idx → EReal)
    (j : (⟨2, ![M, N]⟩ : Shape).Idx) :
    ∑ k : d.contr.Idx, lhs (d.lhsIdx j k) * rhs (d.rhsIdx j k)
      = ∑ k : Fin K, lhs (ix2 (j 0) k) * rhs (ix2 k (j 1)) := by
  have hr : d.contr.rank = 1 := by rw [d.rank_contr, hlc]; rfl
  have hs : d.contr.size ⟨0, by omega⟩ = K := by
    have h := d.size_contr 0 (by rw [hlc]; exact Nat.one_pos)
    rw [h]
    simp only [hlc]
    rfl
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ => exact lhs_axis0 d hln hlb _ _
    | ⟨1, _⟩ => exact (lhs_axis1 d hlc _ _).trans hk)
  have er : d.rhsIdx j ((contrEquiv1 d K hr hs).symm k) = ix2 k (j 1) := funext fun a => Fin.ext (by
    match a with
    | ⟨0, _⟩ => exact (rhs_axis0 d hrc _ _).trans hk
    | ⟨1, _⟩ => exact rhs_axis1 d hln hrn hlb hrb _ _)
  exact congrArg₂ (· * ·) (congrArg lhs el) (congrArg rhs er)

end Cert.DenseAt

end
-- ==== Proof.NetAt.lean ====
/-
  The network's layers read at an index, on the extended reals: a dense layer is the maximum with zero of a sum of
  128 products, a combine is a sum of rows times the reciprocal of the number of terms, the output projection a
  sum of 128 products plus the bias entry of the column.
-/
import proofs.«417135_j31636729102833_2_alg».proof.Proof.Net
import proofs.«417135_j31636729102833_2_alg».proof.Proof.DenseAt
import proofs.«417135_j31636729102833_2_alg».proof.Proof.Consts
import Idealize.ShloMosaic.PureOps.Ideal.Laws
import Idealize.ShloMosaic.Lib.ValueIdx
import Idealize.ShloMosaic.Lib.Pipeline.Value

noncomputable section

namespace Cert.Net

open Idealize.ShloMosaic Idealize.ShloMosaic.ValueIdx Cert.ReferenceIdeal
open Cert.ReferenceIdeal.Facts₀ Cert.ReferenceIdeal.Facts

/-- The zero splat of the paper table's shape is 0 at every index. -/
theorem zerosP_apply (i : S100000x128.Idx) : zerosP (F := Ideal) i = 0 :=
  Cert.Consts.ofBits_zero

/-- The zero splat of the author table's shape is 0 at every index. -/
theorem zerosA_apply (i : S50000x128.Idx) : zerosA (F := Ideal) i = 0 :=
  Cert.Consts.ofBits_zero

theorem featP_apply (X : TP Ideal) (W : TW Ideal) (i : S100000x128.Idx) :
    featP X W i = max (∑ k : Fin 128, X (ix2 (i 0) k) * W (ix2 k (i 1))) 0 := by
  unfold featP
  refine (maximumf_apply _ _ i).trans ?_
  refine congrArg₂ max ?_ (zerosP_apply i)
  simp only [Host.dotGeneral]
  refine (Ideal.dotGeneral_apply _ _ _ X W i).trans ?_
  exact Cert.DenseAt.sum_plain dot_S100000x128_S128x128_S100000x128_1_0_0_1_n_n rfl rfl rfl rfl rfl rfl _ _ i

theorem featA_apply (X : TA Ideal) (W : TW Ideal) (i : S50000x128.Idx) :
    featA X W i = max (∑ k : Fin 128, X (ix2 (i 0) k) * W (ix2 k (i 1))) 0 := by
  unfold featA
  refine (maximumf_apply _ _ i).trans ?_
  refine congrArg₂ max ?_ (zerosA_apply i)
  simp only [Host.dotGeneral]
  refine (Ideal.dotGeneral_apply _ _ _ X W i).trans ?_
  exact Cert.DenseAt.sum_plain dot_S50000x128_S128x128_S50000x128_1_0_0_1_n_n rfl rfl rfl rfl rfl rfl _ _ i

theorem comb3_apply (H A1 A2 : TP Ideal) (i : S100000x128.Idx) :
    comb3 H A1 A2 i = (Ideal.ofBits .f32 0x3DCCCCCD#32 * H i + A1 i + A2 i) * ((1 / 3 : ℝ) : EReal) := by
  unfold comb3
  show Ideal.div (Ideal.ofBits .f32 0x3DCCCCCD#32 * H i + A1 i + A2 i) (Ideal.ofBits .f32 0x40400000#32) = _
  rw [Cert.Consts.ofBits_three]
  exact Ideal.div_coe (by norm_num) _

theorem comb2_apply (H A1 : TA Ideal) (i : S50000x128.Idx) :
    comb2 H A1 i = (Ideal.ofBits .f32 0x3DCCCCCD#32 * H i + A1 i) * ((1 / 2 : ℝ) : EReal) := by
  unfold comb2
  show Ideal.div (Ideal.ofBits .f32 0x3DCCCCCD#32 * H i + A1 i) (Ideal.ofBits .f32 0x40000000#32) = _
  rw [Cert.Consts.ofBits_two]
  exact Ideal.div_coe (by norm_num) _

/-- The bias row repeated down the rows: entry (r, c) is the bias at c. -/
theorem bias_apply (b : FVec Ideal S16 .f32) (i : S100000x16.Idx) :
    broadcastInDim S100000x16 ![0, 1] bcast_S1x16_S100000x16_0_1 (broadcastInDim S1x16 ![1] bcast_S16_S1x16_1 b) i
      = b (ix1 (i 1)) := by
  refine (broadcastInDim_apply _ bcast_S1x16_S100000x16_0_1 _ i (ix2 (0 : Fin 1) (i 1)) (fun a => by
    match a with
    | ⟨0, _⟩ => rfl
    | ⟨1, _⟩ => rfl)).trans ?_
  exact broadcastInDim_apply _ bcast_S16_S1x16_1 b _ (ix1 (i 1)) (fun a => by
    match a with
    | ⟨0, _⟩ => rfl)

theorem outP_apply (H : TP Ideal) (W : FVec Ideal S128x16 .f32) (b : FVec Ideal S16 .f32) (i : S100000x16.Idx) :
    outP H W b i = (∑ k : Fin 128, H (ix2 (i 0) k) * W (ix2 k (i 1))) + b (ix1 (i 1)) := by
  unfold outP
  refine (addf_apply _ _ i).trans ?_
  refine congrArg₂ (· + ·) ?_ (bias_apply b i)
  simp only [Host.dotGeneral]
  refine (Ideal.dotGeneral_apply _ _ _ H W i).trans ?_
  exact Cert.DenseAt.sum_plain dot_S100000x128_S128x16_S100000x16_1_0_0_1_n_n rfl rfl rfl rfl rfl rfl _ _ i

end Cert.Net

end
-- ==== Proof.Region0.lean ====
/-
  The first dense layer on the paper table, block by block: point t of the grid of 20 multiplies rows
  5000 t .. 5000 t + 4999 of the table by the whole weight and keeps the positive part, so the block it writes back
  is the restriction of relu(X·W) to those rows; the twenty blocks cover the table, which therefore ends at
  relu(X·W) of the region's entry contents.
-/
import proofs.«417135_j31636729102833_2_alg».proof.Proof.Gen.KernelIdeal.Frame
import proofs.«417135_j31636729102833_2_alg».proof.Proof.NetAt
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- relu(X·W) on the paper table, over the kernel program's index types. -/
abbrev G (a0 : S100000x128.Idx → Elt Ideal .f32) (a1 : S128x128.Idx → Elt Ideal .f32) : S100000x128.Idx → Elt Ideal .f32 :=
  Cert.Net.featP (F := Ideal) a0 a1

theorem hz : (![0, 0] : Fin 2 → Nat) = fun _ => 0 := funext fun a => by fin_cases a <;> rfl

/-- The body's stored value at row r, column q of its block: the positive part of the sum over k of
    x(r, k) * w(k, q). -/
theorem pay_apply (x0 : Vec Ideal S5000x128 .f32) (x1 : Vec Ideal S128x128 .f32) (j : S5000x128.Idx) :
    k0_pay1 x0 x1 j = max (∑ k : Fin 128, x0 (ix2 (j 0) k) * x1 (ix2 k (j 1))) 0 := by
  unfold k0_pay1
  refine (maximumf_apply _ _ j).trans ?_
  refine congrArg₂ max ?_ Cert.Consts.ofBits_zero
  refine (Ideal.matmul_constant_zero_apply dot_S5000x128_S128x128_S5000x128_1_0_0_1_n_n none _ _ j).trans ?_
  exact Cert.DenseAt.sum_plain dot_S5000x128_S128x128_S5000x128_1_0_0_1_n_n rfl rfl rfl rfl rfl rfl _ _ j

/-- The index maps over the grid: the table's block moves with the result's along the rows, the weight's block stays. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

theorem idx_onto : ∀ q : Fin 20, ∃ t : Fin cfg0.N, win0_2.index t = ![q.val, 0] :=
  (by decide +kernel : ∀ q : Fin 20, ∃ t : Fin grid0.N, win0_2.index t = ![q.val, 0])

/-- What point t writes back is block t of relu(X·W) of the entry contents. -/
theorem flushed_eq (c : Dev nD) (t : Fin cfg0.N) :
    (dat0 V c).flushed 2 t = ((cfg0.win 2).blk t).view.read (Elt Ideal) (G (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  refine (pay_apply _ _ j).trans ?_
  refine (Eq.trans ?_ (Cert.Net.featP_apply _ _ _).symm)
  refine congrArg₂ max (Finset.sum_congr rfl fun k _ => ?_) rfl
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  have e0 : iblk0 V c 0 t (ix2 (j 0) k) = V c main_arg0 (ix2 ((((cfg0.win 2).blk t).view.emb j) 0) k) := by
    exact congrArg (V c main_arg0) h0
  have e1 : iblk0 V c 1 t (ix2 k (j 1)) = V c main_arg3 (ix2 k ((((cfg0.win 2).blk t).view.emb j) 1)) := by
    exact congrArg (V c main_arg3) h1
  rw [e0, e1]

theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v24).slice (win0_2.rect t)).set ↔ _
  rw [View.set_slice_whole, Rect.mem_set_unit]
  exact Iff.rfl

/-- Every row of the table lies in some point's block. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The paper table after the first dense layer: relu(X·W) of the region's entry contents. -/
theorem final (c : Dev nD) :
    (dat0 V c).arrAt 2 cfg0.N = G (V c main_arg0) (V c main_arg3) :=
  (dat0 V c).arrAt_eq_of_cover 2 _ (fun t _ => flushed_eq V c t) cover

end Cert.KernelIdeal.Region0

end
-- ==== Proof.Region1.lean ====
/-
  The first dense layer on the author table, block by block: point t of the grid of 10 multiplies rows
  5000 t .. 5000 t + 4999 of the table by the whole weight and keeps the positive part, so the block it writes back
  is the restriction of relu(X·W) to those rows; the ten blocks cover the table, which therefore ends at
  relu(X·W) of the region's entry contents.
-/
import proofs.«417135_j31636729102833_2_alg».proof.Proof.Gen.KernelIdeal.Frame
import proofs.«417135_j31636729102833_2_alg».proof.Proof.NetAt
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- relu(X·W) on the author table, over the kernel program's index types. -/
abbrev G (a0 : S50000x128.Idx → Elt Ideal .f32) (a1 : S128x128.Idx → Elt Ideal .f32) : S50000x128.Idx → Elt Ideal .f32 :=
  Cert.Net.featA (F := Ideal) a0 a1

theorem hz : (![0, 0] : Fin 2 → Nat) = fun _ => 0 := funext fun a => by fin_cases a <;> rfl

/-- The body's stored value at row r, column q of its block: the positive part of the sum over k of
    x(r, k) * w(k, q). -/
theorem pay_apply (x0 : Vec Ideal S5000x128 .f32) (x1 : Vec Ideal S128x128 .f32) (j : S5000x128.Idx) :
    k1_pay1 x0 x1 j = max (∑ k : Fin 128, x0 (ix2 (j 0) k) * x1 (ix2 k (j 1))) 0 := by
  unfold k1_pay1
  refine (maximumf_apply _ _ j).trans ?_
  refine congrArg₂ max ?_ Cert.Consts.ofBits_zero
  refine (Ideal.matmul_constant_zero_apply dot_S5000x128_S128x128_S5000x128_1_0_0_1_n_n none _ _ j).trans ?_
  exact Cert.DenseAt.sum_plain dot_S5000x128_S128x128_S5000x128_1_0_0_1_n_n rfl rfl rfl rfl rfl rfl _ _ j

/-- The index maps over the grid: the table's block moves with the result's along the rows, the weight's block stays. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

theorem idx_onto : ∀ q : Fin 10, ∃ t : Fin cfg1.N, win1_2.index t = ![q.val, 0] :=
  (by decide +kernel : ∀ q : Fin 10, ∃ t : Fin grid1.N, win1_2.index t = ![q.val, 0])

/-- What point t writes back is block t of relu(X·W) of the entry contents. -/
theorem flushed_eq (c : Dev nD) (t : Fin cfg1.N) :
    (dat1 V c).flushed 2 t = ((cfg1.win 2).blk t).view.read (Elt Ideal) (G (V c main_arg1) (V c main_arg5)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨e0, e1, e2, e3, e4, e5⟩ := idx_facts t
  funext j
  refine (pay_apply _ _ j).trans ?_
  refine (Eq.trans ?_ (Cert.Net.featA_apply _ _ _).symm)
  refine congrArg₂ max (Finset.sum_congr rfl fun k _ => ?_) rfl
  have h0 : ((cfg1.win 0).blk t).view.emb (ix2 (j 0) k) = ix2 ((((cfg1.win 2).blk t).view.emb j) 0) k := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have h1 : ((cfg1.win 1).blk t).view.emb (ix2 k (j 1)) = ix2 k ((((cfg1.win 2).blk t).view.emb j) 1) := by
    funext a; apply Fin.ext
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega
  have e0 : iblk1 V c 0 t (ix2 (j 0) k) = V c main_arg1 (ix2 ((((cfg1.win 2).blk t).view.emb j) 0) k) := by
    exact congrArg (V c main_arg1) h0
  have e1 : iblk1 V c 1 t (ix2 k (j 1)) = V c main_arg5 (ix2 k ((((cfg1.win 2).blk t).view.emb j) 1)) := by
    exact congrArg (V c main_arg5) h1
  rw [e0, e1]

theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v25).slice (win1_2.rect t)).set ↔ _
  rw [View.set_slice_whole, Rect.mem_set_unit]
  exact Iff.rfl

/-- Every row of the table lies in some point's block. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The author table after the first dense layer: relu(X·W) of the region's entry contents. -/
theorem final (c : Dev nD) :
    (dat1 V c).arrAt 2 cfg1.N = G (V c main_arg1) (V c main_arg5) :=
  (dat1 V c).arrAt_eq_of_cover 2 _ (fun t _ => flushed_eq V c t) cover

end Cert.KernelIdeal.Region1

end
-- ==== Proof.Region2.lean ====
/-
  The second dense layer on the paper table, block by block: point t of the grid of 20 combines rows
  5000 t .. 5000 t + 4999 of the first layer's table with the two aggregated tables (a tenth of the row plus the two
  aggregates, times one third), multiplies by the whole weight and keeps the positive part; the block it writes back
  is the restriction of relu(comb3(H, A1, A2)·W) to those rows, and the twenty blocks cover the table.
-/
import proofs.«417135_j31636729102833_2_alg».proof.Proof.Gen.KernelIdeal.Frame
import proofs.«417135_j31636729102833_2_alg».proof.Proof.NetAt
import Idealize.ShloMosaic.Lib.Pipeline.Value
import Idealize.ShloMosaic.PureOps.IdealRules

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- relu(comb3(H, A1, A2)·W) on the paper table, over the kernel program's index types. -/
abbrev G (h a1 a2 : S100000x128.Idx → Elt Ideal .f32) (w : S128x128.Idx → Elt Ideal .f32) : S100000x128.Idx → Elt Ideal .f32 :=
  Cert.Net.featP (F := Ideal) (Cert.Net.comb3 (F := Ideal) h a1 a2) w

theorem hz : (![0, 0] : Fin 2 → Nat) = fun _ => 0 := funext fun a => by fin_cases a <;> rfl

/-- The named reciprocal of the number of terms denotes one third. -/
theorem inv_3 : Named.named (F := Ideal) Cert.KernelIdeal.κ "inv_3" (φ := .f32) 0x3EAAAAAB#32 = ((1 / 3 : ℝ) : EReal) :=
  IdealRules.named_const.ideal_named_scalar _ _ _ _ rfl

/-- The body's stored value at row r, column q of its block: the positive part of the sum over k of
    ((a tenth of x0(r, k) + x1(r, k) + x2(r, k)) / 3) * w(k, q). -/
theorem pay_apply (x0 x1 x2 : Vec Ideal S5000x128 .f32) (x3 : Vec Ideal S128x128 .f32) (j : S5000x128.Idx) :
    k2_pay1 x0 x1 x2 x3 j = max (∑ k : Fin 128, ((Ideal.ofBits .f32 0x3DCCCCCD#32 * x0 (ix2 (j 0) k) + x1 (ix2 (j 0) k)
      + x2 (ix2 (j 0) k)) * ((1 / 3 : ℝ) : EReal)) * x3 (ix2 k (j 1))) 0 := by
  unfold k2_pay1
  refine (maximumf_apply _ _ j).trans ?_
  refine congrArg₂ max ?_ Cert.Consts.ofBits_zero
  refine (Ideal.matmul_constant_zero_apply dot_S5000x128_S128x128_S5000x128_1_0_0_1_n_n none _ _ j).trans ?_
  refine (Cert.DenseAt.sum_plain dot_S5000x128_S128x128_S5000x128_1_0_0_1_n_n rfl rfl rfl rfl rfl rfl _ _ j).trans ?_
  refine Finset.sum_congr rfl fun k _ => ?_
  have c0 := congrFun (shapeCast_self x0 shapeCasts_S5000x128_S5000x128) (ix2 (j 0) k)
  have c1 := congrFun (shapeCast_self x1 shapeCasts_S5000x128_S5000x128) (ix2 (j 0) k)
  have c2 := congrFun (shapeCast_self x2 shapeCasts_S5000x128_S5000x128) (ix2 (j 0) k)
  show (Ideal.ofBits .f32 0x3DCCCCCD#32 * shapeCast S5000x128 x0 shapeCasts_S5000x128_S5000x128 (ix2 (j 0) k)
      + shapeCast S5000x128 x1 shapeCasts_S5000x128_S5000x128 (ix2 (j 0) k)
      + shapeCast S5000x128 x2 shapeCasts_S5000x128_S5000x128 (ix2 (j 0) k))
      * Named.named (F := Ideal) Cert.KernelIdeal.κ "inv_3" (φ := .f32) 0x3EAAAAAB#32 * x3 (ix2 k (j 1)) = _
  rw [c0, c1, c2, inv_3]

/-- The index maps over the grid: the three tables' blocks move with the result's along the rows, the weight's block
    stays. -/
theorem idx_facts : ∀ t : Fin cfg2.N, win2_0.index t (0 : Fin 2) = win2_4.index t (0 : Fin 2)
    ∧ win2_0.index t (1 : Fin 2) = 0
    ∧ win2_1.index t (0 : Fin 2) = win2_4.index t (0 : Fin 2) ∧ win2_1.index t (1 : Fin 2) = 0
    ∧ win2_2.index t (0 : Fin 2) = win2_4.index t (0 : Fin 2) ∧ win2_2.index t (1 : Fin 2) = 0
    ∧ win2_3.index t (0 : Fin 2) = 0 ∧ win2_3.index t (1 : Fin 2) = 0
    ∧ win2_4.index t (1 : Fin 2) = 0 ∧ win2_4.index t (0 : Fin 2) ≤ 19 :=
  (by decide +kernel : ∀ t : Fin grid2.N, _)

theorem idx_onto : ∀ q : Fin 20, ∃ t : Fin cfg2.N, win2_4.index t = ![q.val, 0] :=
  (by decide +kernel : ∀ q : Fin 20, ∃ t : Fin grid2.N, win2_4.index t = ![q.val, 0])

/-- What point t writes back is block t of relu(comb3(H, A1, A2)·W) of the entry contents. -/
theorem flushed_eq (c : Dev nD) (t : Fin cfg2.N) :
    (dat2 V c).flushed 4 t = ((cfg2.win 4).blk t).view.read (Elt Ideal)
      (G (V c main_v24) (V c main_v38) (V c main_v51) (V c main_arg4)) := by
  show (cfg2.win 4).cut (grid2.coords t) ((dat2 V c).after 4 t) = _
  rw [after2_4]
  unfold out2_4
  rw [View.canon_unit_zero hz]
  simp only [View.ld_unit_zero (S := S5000x128) hz, View.ld_unit_zero (S := S128x128) hz]
  obtain ⟨f0, f1, f2, f3, f4, f5, f6, f7, f8, f9⟩ := idx_facts t
  funext j
  refine (pay_apply _ _ _ _ j).trans ?_
  refine (Eq.trans ?_ (Cert.Net.featP_apply _ _ _).symm)
  refine congrArg₂ max (Finset.sum_congr rfl fun k _ => ?_) rfl
  rw [Cert.Net.comb3_apply]
  have h0 : ((cfg2.win 0).blk t).view.emb (ix2 (j 0) k) = ix2 ((((cfg2.win 4).blk t).view.emb j) 0) k := by
    funext a; apply Fin.ext
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 128 + 1 * k.val = k.val; omega
  have h1 : ((cfg2.win 1).blk t).view.emb (ix2 (j 0) k) = ix2 ((((cfg2.win 4).blk t).view.emb j) 0) k := by
    funext a; apply Fin.ext
    match a with
    | ⟨0, _⟩ => show win2_1.index t (0 : Fin 2) * 5000 + 1 * (j 0).val = win2_4.index t (0 : Fin 2) * 5000 + 1 * (j 0).val; omega
    | ⟨1, _⟩ => show win2_1.index t (1 : Fin 2) * 128 + 1 * k.val = k.val; omega
  have h2 : ((cfg2.win 2).blk t).view.emb (ix2 (j 0) k) = ix2 ((((cfg2.win 4).blk t).view.emb j) 0) k := by
    funext a; apply Fin.ext
    match a with
    | ⟨0, _⟩ => show win2_2.index t (0 : Fin 2) * 5000 + 1 * (j 0).val = win2_4.index t (0 : Fin 2) * 5000 + 1 * (j 0).val; omega
    | ⟨1, _⟩ => show win2_2.index t (1 : Fin 2) * 128 + 1 * k.val = k.val; omega
  have h3 : ((cfg2.win 3).blk t).view.emb (ix2 k (j 1)) = ix2 k ((((cfg2.win 4).blk t).view.emb j) 1) := by
    funext a; apply Fin.ext
    match a with
    | ⟨0, _⟩ => show win2_3.index t (0 : Fin 2) * 128 + 1 * k.val = k.val; omega
    | ⟨1, _⟩ => show win2_3.index t (1 : Fin 2) * 128 + 1 * (j 1).val = win2_4.index t (1 : Fin 2) * 128 + 1 * (j 1).val; omega
  have e0 : iblk2 V c 0 t (ix2 (j 0) k) = V c main_v24 (ix2 ((((cfg2.win 4).blk t).view.emb j) 0) k) := by
    exact congrArg (V c main_v24) h0
  have e1 : iblk2 V c 1 t (ix2 (j 0) k) = V c main_v38 (ix2 ((((cfg2.win 4).blk t).view.emb j) 0) k) := by
    exact congrArg (V c main_v38) h1
  have e2 : iblk2 V c 2 t (ix2 (j 0) k) = V c main_v51 (ix2 ((((cfg2.win 4).blk t).view.emb j) 0) k) := by
    exact congrArg (V c main_v51) h2
  have e3 : iblk2 V c 3 t (ix2 k (j 1)) = V c main_arg4 (ix2 k ((((cfg2.win 4).blk t).view.emb j) 1)) := by
    exact congrArg (V c main_arg4) h3
  rw [e0, e1, e2, e3]

theorem mem_blk (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v65).slice (win2_4.rect t)).set ↔ _
  rw [View.set_slice_whole, Rect.mem_set_unit]
  exact Iff.rfl

/-- Every row of the table lies in some point's block. -/
theorem cover (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  obtain ⟨t, ht⟩ := idx_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- The paper table after the second dense layer. -/
theorem final (c : Dev nD) :
    (dat2 V c).arrAt 4 cfg2.N = G (V c main_v24) (V c main_v38) (V c main_v51) (V c main_arg4) :=
  (dat2 V c).arrAt_eq_of_cover 4 _ (fun t _ => flushed_eq V c t) cover

end Cert.KernelIdeal.Region2

end
-- ==== Proof.Region3.lean ====
/-
  The second dense layer on the author table, block by block: point t of the grid of 10 combines rows
  5000 t .. 5000 t + 4999 of the first layer's table with the aggregated table (a tenth of the row plus the
  aggregate, times one half), multiplies by the whole weight and keeps the positive part; the block it writes back
  is the restriction of relu(comb2(H, A)·W) to those rows, and the ten blocks cover the table.
-/
import proofs.«417135_j31636729102833_2_alg».proof.Proof.Gen.KernelIdeal.Frame
import proofs.«417135_j31636729102833_2_alg».proof.Proof.NetAt
import Idealize.ShloMosaic.Lib.Pipeline.Value

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- relu(comb2(H, A)·W) on the author table, over the kernel program's index types. -/
abbrev G (h a : S50000x128.Idx → Elt Ideal .f32) (w : S128x128.Idx → Elt Ideal .f32) : S50000x128.Idx → Elt Ideal .f32 :=
  Cert.Net.featA (F := Ideal) (Cert.Net.comb2 (F := Ideal) h a) w

theorem hz : (![0, 0] : Fin 2 → Nat) = fun _ => 0 := funext fun a => by fin_cases a <;> rfl

/-- The body's stored value at row r, column q of its block: the positive part of the sum over k of
    ((x(r, k) / 10 + a(r, k)) / 2) * w(k, q), the tenth and the half as the constants the body spells. -/
theorem pay_apply (x0 x1 : Vec Ideal S5000x128 .f32) (x2 : Vec Ideal S128x128 .f32) (j : S5000x128.Idx) :
    k3_pay1 x0 x1 x2 j
      = max (∑ k : Fin 128, ((Ideal.ofBits .f32 0x3DCCCCCD#32 * x0 (ix2 (j 0) k) + x1 (ix2 (j 0) k)) * ((1 / 2 : ℝ) : EReal))
          * x2 (ix2 k (j 1))) 0 := by
  unfold k3_pay1
  refine (maximumf_apply _ _ j).trans ?_
  refine congrArg₂ max ?_ Cert.Consts.ofBits_zero
  refine (Ideal.matmul_constant_zero_apply dot_S5000x128_S128x128_S5000x128_1_0_0_1_n_n none _ _ j).trans ?_
  refine (Cert.DenseAt.sum_plain dot_S5000x128_S128x128_S5000x128_1_0_0_1_n_n rfl rfl rfl rfl rfl rfl _ _ j).trans ?_
  refine Finset.sum_congr rfl fun k _ => ?_
  rw [shapeCast_self x0, shapeCast_self x1]
  show ((Ideal.ofBits .f32 0x3DCCCCCD#32 * x0 (ix2 (j 0) k) + x1 (ix2 (j 0) k)) * Ideal.ofBits .f32 0x3F000000#32) * x2 (ix2 k (j 1)) = _
  rw [Cert.Consts.ofBits_half]

/-- The index maps over the grid: the two tables' blocks move with the result's along the rows, the weight's block stays. -/
theorem idx_facts : ∀ t : Fin cfg3.N, win3_0.index t (0 : Fin 2) = win3_3.index t (0 : Fin 2)
    ∧ win3_0.index t (1 : Fin 2) = 0 ∧ win3_1.index t (0 : Fin 2) = win3_3.index t (0 : Fin 2)
    ∧ win3_1.index t (1 : Fin 2) = 0 ∧ win3_2.index t (0 : Fin 2) = 0 ∧ win3_2.index t (1 : Fin 2) = 0
    ∧ win3_3.index t (1 : Fin 2) = 0 ∧ win3_3.index t (0 : Fin 2) ≤ 9 :=
  (by decide +kernel : ∀ t : Fin grid3.N, _)

theorem idx_onto : ∀ q : Fin 10, ∃ t : Fin cfg3.N, win3_3.index t = ![q.val, 0] :=
  (by decide +kernel : ∀ q : Fin 10, ∃ t : Fin grid3.N, win3_3.index t = ![q.val, 0])

/-- What point t writes back is block t of relu(comb2(H, A)·W) of the entry contents. -/
theorem flushed_eq (c : Dev nD) (t : Fin cfg3.N) :
    (dat3 V c).flushed 3 t = ((cfg3.win 3).blk t).view.read (Elt Ideal) (G (V c main_v25) (V c main_v64) (V c main_arg6)) := by
  show (cfg3.win 3).cut (grid3.coords t) ((dat3 V c).after 3 t) = _
  rw [after3_3]
  unfold out3_3
  rw [View.canon_unit_zero hz]
  simp only [View.ld_unit_zero (S := S5000x128) hz, View.ld_unit_zero (S := S128x128) hz]
  obtain ⟨e0, e1, e2, e3, e4, e5, e6, e7⟩ := idx_facts t
  funext j
  refine (pay_apply _ _ _ j).trans ?_
  refine (Eq.trans ?_ (Cert.Net.featA_apply _ _ _).symm)
  refine congrArg₂ max (Finset.sum_congr rfl fun k _ => ?_) rfl
  rw [Cert.Net.comb2_apply]
  have h0 : ((cfg3.win 0).blk t).view.emb (ix2 (j 0) k) = ix2 ((((cfg3.win 3).blk t).view.emb j) 0) k := by
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * k.val = k.val; omega
  have h1 : ((cfg3.win 1).blk t).view.emb (ix2 (j 0) k) = ix2 ((((cfg3.win 3).blk t).view.emb j) 0) k := by
    funext a; apply Fin.ext
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 128 + 1 * k.val = k.val; omega
  have h2 : ((cfg3.win 2).blk t).view.emb (ix2 k (j 1)) = ix2 k ((((cfg3.win 3).blk t).view.emb j) 1) := by
    funext a; apply Fin.ext
    match a with
    | ⟨0, _⟩ => show win3_2.index t (0 : Fin 2) * 128 + 1 * k.val = k.val; omega
    | ⟨1, _⟩ => show win3_2.index t (1 : Fin 2) * 128 + 1 * (j 1).val = win3_3.index t (1 : Fin 2) * 128 + 1 * (j 1).val; omega
  have f0 : iblk3 V c 0 t (ix2 (j 0) k) = V c main_v25 (ix2 ((((cfg3.win 3).blk t).view.emb j) 0) k) :=
    congrArg (V c main_v25) h0
  have f1 : iblk3 V c 1 t (ix2 (j 0) k) = V c main_v64 (ix2 ((((cfg3.win 3).blk t).view.emb j) 0) k) :=
    congrArg (V c main_v64) h1
  have f2 : iblk3 V c 2 t (ix2 k (j 1)) = V c main_arg6 (ix2 k ((((cfg3.win 3).blk t).view.emb j) 1)) :=
    congrArg (V c main_arg6) h2
  rw [f0, f1, f2]

theorem mem_blk (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v66).slice (win3_3.rect t)).set ↔ _
  rw [View.set_slice_whole, Rect.mem_set_unit]
  exact Iff.rfl

/-- Every row of the table lies in some point's block. -/
theorem cover (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  obtain ⟨t, ht⟩ := idx_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The author table after the second dense layer. -/
theorem final (c : Dev nD) :
    (dat3 V c).arrAt 3 cfg3.N = G (V c main_v25) (V c main_v64) (V c main_arg6) :=
  (dat3 V c).arrAt_eq_of_cover 3 _ (fun t _ => flushed_eq V c t) cover

end Cert.KernelIdeal.Region3

end
-- ==== Proof.Region4.lean ====
/-
  The output projection, block by block: point t of the grid of 20 combines rows 5000 t .. 5000 t + 4999 of the
  second layer's paper table with the two aggregated tables (a tenth of the row plus the two aggregates, times one
  third), multiplies by the whole 128 x 16 weight and adds the bias row; the block it writes back is the restriction
  of comb3(H, A1, A2)·W + b to those rows, and the twenty blocks cover the 100000 x 16 result.
-/
import proofs.«417135_j31636729102833_2_alg».proof.Proof.Gen.KernelIdeal.Frame
import proofs.«417135_j31636729102833_2_alg».proof.Proof.NetAt
import Idealize.ShloMosaic.Lib.Pipeline.Value
import Idealize.ShloMosaic.Lib.ValueLayout
import Idealize.ShloMosaic.PureOps.IdealRules

set_option maxRecDepth 16384

noncomputable section

namespace Cert.KernelIdeal.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- comb3(H, A1, A2)·W + b over the kernel program's index types, the bias given as a 1 x 16 row. -/
abbrev G (h a1 a2 : S100000x128.Idx → Elt Ideal .f32) (w : S128x16.Idx → Elt Ideal .f32) (b : S1x16.Idx → Elt Ideal .f32) :
    S100000x16.Idx → Elt Ideal .f32 :=
  Cert.Net.outP (F := Ideal) (Cert.Net.comb3 (F := Ideal) h a1 a2) w (fun q => b (ix2 (0 : Fin 1) (q 0)))

theorem hz : (![0, 0] : Fin 2 → Nat) = fun _ => 0 := funext fun a => by fin_cases a <;> rfl

/-- The named reciprocal of the number of terms is one third. -/
theorem inv_3 : Named.named (F := Ideal) Cert.KernelIdeal.κ "inv_3" (φ := .f32) 0x3EAAAAAB#32 = ((1 / 3 : ℝ) : EReal) :=
  IdealRules.named_const.ideal_named_scalar _ _ _ _ rfl

/-- The body's stored value at row r, column q of its block: the sum over k of the combined row entry
    (a tenth of h(r, k) plus a1(r, k) plus a2(r, k), times one third) times w(k, q), plus the bias at q. -/
theorem pay_apply (x0 x1 x2 : Vec Ideal S5000x128 .f32) (x3 : Vec Ideal S128x16 .f32) (x4 : Vec Ideal S1x16 .f32)
    (j : S5000x16.Idx) :
    k4_pay1 x0 x1 x2 x3 x4 j
      = (∑ k : Fin 128, ((Ideal.ofBits .f32 0x3DCCCCCD#32 * x0 (ix2 (j 0) k) + x1 (ix2 (j 0) k) + x2 (ix2 (j 0) k))
            * ((1 / 3 : ℝ) : EReal)) * x3 (ix2 k (j 1)))
        + x4 (ix2 (0 : Fin 1) (j 1)) := by
  unfold k4_pay1
  refine (addf_apply _ _ j).trans ?_
  refine congrArg₂ (· + ·) ?_ ?_
  · refine (Ideal.matmul_constant_zero_apply dot_S5000x128_S128x16_S5000x16_1_0_0_1_n_n none _ _ j).trans ?_
    refine (Cert.DenseAt.sum_plain dot_S5000x128_S128x16_S5000x16_1_0_0_1_n_n rfl rfl rfl rfl rfl rfl _ _ j).trans ?_
    refine Finset.sum_congr rfl fun k _ => ?_
    rw [← inv_3]
    simp only [shapeCast_self]
    rfl
  · simp only [shapeCast_self]
    rw [eq_ix2 j]
    exact broadcastTo_1b_ab_apply _ _ (j 0) (j 1)

/-- The index maps over the grid: the three tables' blocks move with the result's along the rows; the weight's
    and the bias row's blocks stay. -/
theorem idx_facts : ∀ t : Fin cfg4.N,
    win4_0.index t (0 : Fin 2) = win4_5.index t (0 : Fin 2) ∧ win4_0.index t (1 : Fin 2) = 0
    ∧ win4_1.index t (0 : Fin 2) = win4_5.index t (0 : Fin 2) ∧ win4_1.index t (1 : Fin 2) = 0
    ∧ win4_2.index t (0 : Fin 2) = win4_5.index t (0 : Fin 2) ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (1 : Fin 2) = 0 ∧ win4_5.index t (0 : Fin 2) ≤ 19 :=
  (by decide +kernel : ∀ t : Fin grid4.N, _)

theorem idx_onto : ∀ q : Fin 20, ∃ t : Fin cfg4.N, win4_5.index t = ![q.val, 0] :=
  (by decide +kernel : ∀ q : Fin 20, ∃ t : Fin grid4.N, win4_5.index t = ![q.val, 0])

/-- What point t writes back is block t of comb3(H, A1, A2)·W + b of the entry contents. -/
theorem flushed_eq (c : Dev nD) (t : Fin cfg4.N) :
    (dat4 V c).flushed 5 t = ((cfg4.win 5).blk t).view.read (Elt Ideal)
      (G (V c main_v65) (V c main_v79) (V c main_v92) (V c main_arg9) (V c main_v93)) := by
  show (cfg4.win 5).cut (grid4.coords t) ((dat4 V c).after 5 t) = _
  rw [after4_5]
  unfold out4_5
  rw [View.canon_unit_zero hz]
  simp only [View.ld_unit_zero (S := S5000x128) hz, View.ld_unit_zero (S := S128x16) hz, View.ld_unit_zero (S := S1x16) hz]
  obtain ⟨f0, f1, f2, f3, f4, f5, f6, f7, f8, f9, f10, f11⟩ := idx_facts t
  funext j
  refine (pay_apply _ _ _ _ _ j).trans ?_
  refine (Eq.trans ?_ (Cert.Net.outP_apply _ _ _ _).symm)
  refine congrArg₂ (· + ·) (Finset.sum_congr rfl fun k _ => ?_) ?_
  · rw [Cert.Net.comb3_apply]
    have h0 : ((cfg4.win 0).blk t).view.emb (ix2 (j 0) k) = ix2 ((((cfg4.win 5).blk t).view.emb j) 0) k := by
      funext a; apply Fin.ext
      match a with
      | ⟨0, _⟩ => show win4_0.index t (0 : Fin 2) * 5000 + 1 * (j 0).val = win4_5.index t (0 : Fin 2) * 5000 + 1 * (j 0).val; omega
      | ⟨1, _⟩ => show win4_0.index t (1 : Fin 2) * 128 + 1 * k.val = k.val; omega
    have h1 : ((cfg4.win 1).blk t).view.emb (ix2 (j 0) k) = ix2 ((((cfg4.win 5).blk t).view.emb j) 0) k := by
      funext a; apply Fin.ext
      match a with
      | ⟨0, _⟩ => show win4_1.index t (0 : Fin 2) * 5000 + 1 * (j 0).val = win4_5.index t (0 : Fin 2) * 5000 + 1 * (j 0).val; omega
      | ⟨1, _⟩ => show win4_1.index t (1 : Fin 2) * 128 + 1 * k.val = k.val; omega
    have h2 : ((cfg4.win 2).blk t).view.emb (ix2 (j 0) k) = ix2 ((((cfg4.win 5).blk t).view.emb j) 0) k := by
      funext a; apply Fin.ext
      match a with
      | ⟨0, _⟩ => show win4_2.index t (0 : Fin 2) * 5000 + 1 * (j 0).val = win4_5.index t (0 : Fin 2) * 5000 + 1 * (j 0).val; omega
      | ⟨1, _⟩ => show win4_2.index t (1 : Fin 2) * 128 + 1 * k.val = k.val; omega
    have h3 : ((cfg4.win 3).blk t).view.emb (ix2 k (j 1)) = ix2 k ((((cfg4.win 5).blk t).view.emb j) 1) := by
      funext a; apply Fin.ext
      match a with
      | ⟨0, _⟩ => show win4_3.index t (0 : Fin 2) * 128 + 1 * k.val = k.val; omega
      | ⟨1, _⟩ => show win4_3.index t (1 : Fin 2) * 16 + 1 * (j 1).val = win4_5.index t (1 : Fin 2) * 16 + 1 * (j 1).val; omega
    have e0 : iblk4 V c 0 t (ix2 (j 0) k) = V c main_v65 (ix2 ((((cfg4.win 5).blk t).view.emb j) 0) k) := by
      exact congrArg (V c main_v65) h0
    have e1 : iblk4 V c 1 t (ix2 (j 0) k) = V c main_v79 (ix2 ((((cfg4.win 5).blk t).view.emb j) 0) k) := by
      exact congrArg (V c main_v79) h1
    have e2 : iblk4 V c 2 t (ix2 (j 0) k) = V c main_v92 (ix2 ((((cfg4.win 5).blk t).view.emb j) 0) k) := by
      exact congrArg (V c main_v92) h2
    have e3 : iblk4 V c 3 t (ix2 k (j 1)) = V c main_arg9 (ix2 k ((((cfg4.win 5).blk t).view.emb j) 1)) := by
      exact congrArg (V c main_arg9) h3
    rw [e0, e1, e2, e3]
  · have h4 : ((cfg4.win 4).blk t).view.emb (ix2 (0 : Fin 1) (j 1)) = ix2 (0 : Fin 1) ((((cfg4.win 5).blk t).view.emb j) 1) := by
      funext a; apply Fin.ext
      match a with
      | ⟨0, _⟩ => show win4_4.index t (0 : Fin 2) * 1 + 1 * 0 = 0; omega
      | ⟨1, _⟩ => show win4_4.index t (1 : Fin 2) * 16 + 1 * (j 1).val = win4_5.index t (1 : Fin 2) * 16 + 1 * (j 1).val; omega
    exact congrArg (V c main_v93) h4

theorem mem_blk (t : Fin cfg4.N) (i : S100000x16.Idx) :
    i ∈ ((cfg4.win 5).blk t).view.set ↔ ∀ a : Fin 2, win4_5.index t a * S5000x16.size a ≤ (i a).val ∧ (i a).val < win4_5.index t a * S5000x16.size a + S5000x16.size a := by
  show i ∈ ((View.whole main_v94).slice (win4_5.rect t)).set ↔ _
  rw [View.set_slice_whole, Rect.mem_set_unit]
  exact Iff.rfl

/-- Every entry of the result lies in some point's block. -/
theorem cover (i : S100000x16.Idx) : ∃ t : Fin cfg4.N, (cfg4.win 5).flush t = true ∧ i ∈ ((cfg4.win 5).blk t).view.set := by
  have hi0 : (i 0).val < 100000 := (i 0).isLt
  have hi1 : (i 1).val < 16 := (i 1).isLt
  obtain ⟨t, ht⟩ := idx_onto ⟨(i 0).val / 5000, by omega⟩
  have q0 : win4_5.index t (0 : Fin 2) = (i 0).val / 5000 := congrFun ht 0
  have q1 : win4_5.index t (1 : Fin 2) = 0 := congrFun ht 1
  refine ⟨t, flush4_5 t, ?_⟩
  rw [mem_blk]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 16 ≤ (i 1).val ∧ (i 1).val < win4_5.index t (1 : Fin 2) * 16 + 16; omega

/-- The result array after the output projection. -/
theorem final (c : Dev nD) :
    (dat4 V c).arrAt 5 cfg4.N = G (V c main_v65) (V c main_v79) (V c main_v92) (V c main_arg9) (V c main_v93) :=
  (dat4 V c).arrAt_eq_of_cover 5 _ (fun t _ => flushed_eq V c t) cover

end Cert.KernelIdeal.Region4

end
-- ==== Proof.Chain.lean ====
/-
  The kernel program's result as one function of its arguments: the buffer contents at the eight boundaries between
  the stretches of host operations and the kernel regions, walked from the launch to the return.  Each region leaves
  its output table at its dense layer of the tables it was entered with, each stretch leaves the aggregations of the
  tables before it, and an aggregation's product with the reciprocal divisor is the quotient; so the result array
  ends at the network of Net.lean applied to the launch contents of the arguments.
-/
import proofs.«417135_j31636729102833_2_alg».proof.Proof.Gen.KernelIdeal.Frame
import proofs.«417135_j31636729102833_2_alg».proof.Proof.Stretch
import proofs.«417135_j31636729102833_2_alg».proof.Proof.MeanLaw
import proofs.«417135_j31636729102833_2_alg».proof.Proof.Region0
import proofs.«417135_j31636729102833_2_alg».proof.Proof.Region1
import proofs.«417135_j31636729102833_2_alg».proof.Proof.Region2
import proofs.«417135_j31636729102833_2_alg».proof.Proof.Region3
import proofs.«417135_j31636729102833_2_alg».proof.Proof.Region4

set_option maxRecDepth 16384

noncomputable section

namespace Cert.KernelIdeal.Chain

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ## The launch contents of the arguments, and the network's tables over them -/

abbrev xP (c : Dev nD) : Cert.Net.TP Ideal := m ((c : Thread nD τ).loc main_arg0)
abbrev xA (c : Dev nD) : Cert.Net.TA Ideal := m ((c : Thread nD τ).loc main_arg1)
abbrev wP0 (c : Dev nD) : Cert.Net.TW Ideal := m ((c : Thread nD τ).loc main_arg3)
abbrev wP1 (c : Dev nD) : Cert.Net.TW Ideal := m ((c : Thread nD τ).loc main_arg4)
abbrev wA0 (c : Dev nD) : Cert.Net.TW Ideal := m ((c : Thread nD τ).loc main_arg5)
abbrev wA1 (c : Dev nD) : Cert.Net.TW Ideal := m ((c : Thread nD τ).loc main_arg6)
abbrev wO (c : Dev nD) : FVec Ideal S128x16 .f32 := m ((c : Thread nD τ).loc main_arg9)
abbrev bO (c : Dev nD) : FVec Ideal S16 .f32 := m ((c : Thread nD τ).loc main_arg10)
abbrev sW (c : Dev nD) : IVec S400000 32 := m ((c : Thread nD τ).loc main_arg11)
abbrev dW (c : Dev nD) : IVec S400000 32 := m ((c : Thread nD τ).loc main_arg12)
abbrev sB (c : Dev nD) : IVec S400000 32 := m ((c : Thread nD τ).loc main_arg13)
abbrev dB (c : Dev nD) : IVec S400000 32 := m ((c : Thread nD τ).loc main_arg14)
abbrev sC (c : Dev nD) : IVec S600000 32 := m ((c : Thread nD τ).loc main_arg15)
abbrev dC (c : Dev nD) : IVec S600000 32 := m ((c : Thread nD τ).loc main_arg16)

abbrev h0P (c : Dev nD) : Cert.Net.TP Ideal := Cert.Net.h0P (xP m c) (wP0 m c)
abbrev h0A (c : Dev nD) : Cert.Net.TA Ideal := Cert.Net.h0A (xA m c) (wA0 m c)
abbrev a0Pw (c : Dev nD) : Cert.Net.TP Ideal := Cert.Net.a0Pw (xA m c) (wA0 m c) (sW m c) (dW m c)
abbrev a0Pc (c : Dev nD) : Cert.Net.TP Ideal := Cert.Net.a0Pc (xP m c) (wP0 m c) (sC m c) (dC m c)
abbrev a0A (c : Dev nD) : Cert.Net.TA Ideal := Cert.Net.a0A (xP m c) (wP0 m c) (sB m c) (dB m c)
abbrev h1P (c : Dev nD) : Cert.Net.TP Ideal :=
  Cert.Net.h1P (xP m c) (xA m c) (wP0 m c) (wP1 m c) (wA0 m c) (sW m c) (dW m c) (sC m c) (dC m c)
abbrev h1A (c : Dev nD) : Cert.Net.TA Ideal :=
  Cert.Net.h1A (xP m c) (xA m c) (wP0 m c) (wA0 m c) (wA1 m c) (sB m c) (dB m c)
abbrev a1Pw (c : Dev nD) : Cert.Net.TP Ideal :=
  Cert.Net.a1Pw (xP m c) (xA m c) (wP0 m c) (wA0 m c) (wA1 m c) (sW m c) (dW m c) (sB m c) (dB m c)
abbrev a1Pc (c : Dev nD) : Cert.Net.TP Ideal :=
  Cert.Net.a1Pc (xP m c) (xA m c) (wP0 m c) (wP1 m c) (wA0 m c) (sW m c) (dW m c) (sC m c) (dC m c)

section Walk

variable (c : Dev nD)

/-! ## A buffer carried unchanged from one boundary to a later one -/

/-- Across the first two regions: a buffer that is neither's array. -/
theorem w3_of_w1 (b : Ref sig .tc) (h0 : ∀ w, Pipeline.arrRef spec0 w ≠ b := by decide)
    (h1 : ∀ w, Pipeline.arrRef spec1 w ≠ b := by decide) :
    W3 m ρ c (Proc.devRef .tc b) = W1 m ρ c (Proc.devRef .tc b) :=
  (W3_of_ne m ρ c b h1).trans (W2_of_ne m ρ c b h0)
/-- Across the middle stretch: a buffer it does not write. -/
theorem w4_of_w3 (b : Ref sig .tc) (hb : b ∈ ([main_v24, main_v25, main_v7, main_v15, main_arg4, main_arg6, main_arg9, main_arg10,
      main_arg11, main_arg12, main_arg15, main_arg16] : List (Ref sig .tc)) := by decide) :
    W4 m ρ c (Proc.devRef .tc b) = W3 m ρ c (Proc.devRef .tc b) :=
  Stretch.s2_keep (W3 m ρ c) b hb
/-- Across the third and fourth regions: a buffer that is neither's array. -/
theorem w6_of_w4 (b : Ref sig .tc) (h2 : ∀ w, Pipeline.arrRef spec2 w ≠ b := by decide)
    (h3 : ∀ w, Pipeline.arrRef spec3 w ≠ b := by decide) :
    W6 m ρ c (Proc.devRef .tc b) = W4 m ρ c (Proc.devRef .tc b) :=
  (W6_of_ne m ρ c b h3).trans (W5_of_ne m ρ c b h2)

/-! ## The arguments stay at their launch contents -/

theorem w1_arg (b : Ref sig .tc) (hb : b ∈ ([main_arg0, main_arg1, main_arg3, main_arg4, main_arg5, main_arg6, main_arg9, main_arg10,
      main_arg11, main_arg12, main_arg13, main_arg14, main_arg15, main_arg16] : List (Ref sig .tc)) := by decide) :
    W1 m ρ c (Proc.devRef .tc b) = m ((c : Thread nD τ).loc b) :=
  Stretch.s0_keep (W0 m ρ c) b hb
theorem w2_arg (b : Ref sig .tc) (hb : b ∈ ([main_arg0, main_arg1, main_arg3, main_arg4, main_arg5, main_arg6, main_arg9, main_arg10,
      main_arg11, main_arg12, main_arg13, main_arg14, main_arg15, main_arg16] : List (Ref sig .tc)) := by decide)
    (h0 : ∀ w, Pipeline.arrRef spec0 w ≠ b := by decide) :
    W2 m ρ c (Proc.devRef .tc b) = m ((c : Thread nD τ).loc b) :=
  (W2_of_ne m ρ c b h0).trans (w1_arg m ρ c b hb)
theorem w3_arg (b : Ref sig .tc) (hb : b ∈ ([main_arg0, main_arg1, main_arg3, main_arg4, main_arg5, main_arg6, main_arg9, main_arg10,
      main_arg11, main_arg12, main_arg13, main_arg14, main_arg15, main_arg16] : List (Ref sig .tc)) := by decide)
    (h0 : ∀ w, Pipeline.arrRef spec0 w ≠ b := by decide) (h1 : ∀ w, Pipeline.arrRef spec1 w ≠ b := by decide) :
    W3 m ρ c (Proc.devRef .tc b) = m ((c : Thread nD τ).loc b) :=
  (w3_of_w1 m ρ c b h0 h1).trans (w1_arg m ρ c b hb)
theorem w4_arg (b : Ref sig .tc) (hb : b ∈ ([main_arg0, main_arg1, main_arg3, main_arg4, main_arg5, main_arg6, main_arg9, main_arg10,
      main_arg11, main_arg12, main_arg13, main_arg14, main_arg15, main_arg16] : List (Ref sig .tc)) := by decide)
    (h0 : ∀ w, Pipeline.arrRef spec0 w ≠ b := by decide) (h1 : ∀ w, Pipeline.arrRef spec1 w ≠ b := by decide)
    (hb2 : b ∈ ([main_v24, main_v25, main_v7, main_v15, main_arg4, main_arg6, main_arg9, main_arg10,
      main_arg11, main_arg12, main_arg15, main_arg16] : List (Ref sig .tc)) := by decide) :
    W4 m ρ c (Proc.devRef .tc b) = m ((c : Thread nD τ).loc b) :=
  (w4_of_w3 m ρ c b hb2).trans (w3_arg m ρ c b hb h0 h1)
theorem w5_arg (b : Ref sig .tc) (hb : b ∈ ([main_arg0, main_arg1, main_arg3, main_arg4, main_arg5, main_arg6, main_arg9, main_arg10,
      main_arg11, main_arg12, main_arg13, main_arg14, main_arg15, main_arg16] : List (Ref sig .tc)) := by decide)
    (h0 : ∀ w, Pipeline.arrRef spec0 w ≠ b := by decide) (h1 : ∀ w, Pipeline.arrRef spec1 w ≠ b := by decide)
    (hb2 : b ∈ ([main_v24, main_v25, main_v7, main_v15, main_arg4, main_arg6, main_arg9, main_arg10,
      main_arg11, main_arg12, main_arg15, main_arg16] : List (Ref sig .tc)) := by decide) (h2 : ∀ w, Pipeline.arrRef spec2 w ≠ b := by decide) :
    W5 m ρ c (Proc.devRef .tc b) = m ((c : Thread nD τ).loc b) :=
  (W5_of_ne m ρ c b h2).trans (w4_arg m ρ c b hb h0 h1 hb2)
theorem w6_arg (b : Ref sig .tc) (hb : b ∈ ([main_arg0, main_arg1, main_arg3, main_arg4, main_arg5, main_arg6, main_arg9, main_arg10,
      main_arg11, main_arg12, main_arg13, main_arg14, main_arg15, main_arg16] : List (Ref sig .tc)) := by decide)
    (h0 : ∀ w, Pipeline.arrRef spec0 w ≠ b := by decide) (h1 : ∀ w, Pipeline.arrRef spec1 w ≠ b := by decide)
    (hb2 : b ∈ ([main_v24, main_v25, main_v7, main_v15, main_arg4, main_arg6, main_arg9, main_arg10,
      main_arg11, main_arg12, main_arg15, main_arg16] : List (Ref sig .tc)) := by decide) (h2 : ∀ w, Pipeline.arrRef spec2 w ≠ b := by decide)
    (h3 : ∀ w, Pipeline.arrRef spec3 w ≠ b := by decide) :
    W6 m ρ c (Proc.devRef .tc b) = m ((c : Thread nD τ).loc b) :=
  (w6_of_w4 m ρ c b h2 h3).trans (w4_arg m ρ c b hb h0 h1 hb2)

/-! ## After the first stretch: the reciprocal divisors -/

theorem w1_v7 : (W1 m ρ c (Proc.devRef .tc main_v7) : FVec Ideal S100000 .f32)
    = Cert.Net.invP (F := Ideal) (Cert.Net.degPw (F := Ideal) (dW m c)) := Stretch.s0_v7 (W0 m ρ c)
theorem w1_v15 : (W1 m ρ c (Proc.devRef .tc main_v15) : FVec Ideal S100000 .f32)
    = Cert.Net.invP (F := Ideal) (Cert.Net.degPc (F := Ideal) (dC m c)) := Stretch.s0_v15 (W0 m ρ c)
theorem w1_v23 : (W1 m ρ c (Proc.devRef .tc main_v23) : FVec Ideal S50000 .f32)
    = Cert.Net.invA (F := Ideal) (Cert.Net.degA (F := Ideal) (dB m c)) := Stretch.s0_v23 (W0 m ρ c)

/-! ## After the first layer's two regions: the two feature tables -/

theorem w2_v24 : (W2 m ρ c (Proc.devRef .tc main_v24) : Cert.Net.TP Ideal) = h0P m c := by
  refine (W2_arr m ρ c 2).trans ((Region0.final (V1 m ρ) c).trans ?_)
  exact congr (congrArg Region0.G (w1_arg m ρ c main_arg0)) (w1_arg m ρ c main_arg3)
theorem w3_v24 : (W3 m ρ c (Proc.devRef .tc main_v24) : Cert.Net.TP Ideal) = h0P m c :=
  (W3_of_ne m ρ c main_v24 (by decide)).trans (w2_v24 m ρ c)
theorem w3_v25 : (W3 m ρ c (Proc.devRef .tc main_v25) : Cert.Net.TA Ideal) = h0A m c := by
  refine (W3_arr m ρ c 2).trans ((Region1.final (V2 m ρ) c).trans ?_)
  exact congr (congrArg Region1.G (w2_arg m ρ c main_arg1)) (w2_arg m ρ c main_arg5)
theorem w3_v7 : (W3 m ρ c (Proc.devRef .tc main_v7) : FVec Ideal S100000 .f32)
    = Cert.Net.invP (F := Ideal) (Cert.Net.degPw (F := Ideal) (dW m c)) := (w3_of_w1 m ρ c main_v7).trans (w1_v7 m ρ c)
theorem w3_v15 : (W3 m ρ c (Proc.devRef .tc main_v15) : FVec Ideal S100000 .f32)
    = Cert.Net.invP (F := Ideal) (Cert.Net.degPc (F := Ideal) (dC m c)) := (w3_of_w1 m ρ c main_v15).trans (w1_v15 m ρ c)
theorem w3_v23 : (W3 m ρ c (Proc.devRef .tc main_v23) : FVec Ideal S50000 .f32)
    = Cert.Net.invA (F := Ideal) (Cert.Net.degA (F := Ideal) (dB m c)) := (w3_of_w1 m ρ c main_v23).trans (w1_v23 m ρ c)

/-! ## After the middle stretch: the first layer's three mean aggregations -/

theorem w4_v38 : (W4 m ρ c (Proc.devRef .tc main_v38) : Cert.Net.TP Ideal) = a0Pw m c := by
  refine (Stretch.s2_v38 (W3 m ρ c)).trans ?_
  rw [w3_v25 m ρ c, w3_arg m ρ c main_arg11, w3_arg m ρ c main_arg12, w3_v7 m ρ c]
  exact Cert.Net.mul_invP _ _ (Cert.Net.degPw_ne_zero _)
theorem w4_v51 : (W4 m ρ c (Proc.devRef .tc main_v51) : Cert.Net.TP Ideal) = a0Pc m c := by
  refine (Stretch.s2_v51 (W3 m ρ c)).trans ?_
  rw [w3_v24 m ρ c, w3_arg m ρ c main_arg15, w3_arg m ρ c main_arg16, w3_v15 m ρ c]
  exact Cert.Net.mul_invP _ _ (Cert.Net.degPc_ne_zero _)
theorem w4_v64 : (W4 m ρ c (Proc.devRef .tc main_v64) : Cert.Net.TA Ideal) = a0A m c := by
  refine (Stretch.s2_v64 (W3 m ρ c)).trans ?_
  rw [w3_v24 m ρ c, w3_arg m ρ c main_arg13, w3_arg m ρ c main_arg14, w3_v23 m ρ c]
  exact Cert.Net.mul_invA _ _ (Cert.Net.degA_ne_zero _)
theorem w4_v24 : (W4 m ρ c (Proc.devRef .tc main_v24) : Cert.Net.TP Ideal) = h0P m c :=
  (w4_of_w3 m ρ c main_v24).trans (w3_v24 m ρ c)
theorem w4_v25 : (W4 m ρ c (Proc.devRef .tc main_v25) : Cert.Net.TA Ideal) = h0A m c :=
  (w4_of_w3 m ρ c main_v25).trans (w3_v25 m ρ c)

/-! ## After the second layer's two regions: the second feature tables -/

theorem w5_v65 : (W5 m ρ c (Proc.devRef .tc main_v65) : Cert.Net.TP Ideal) = h1P m c := by
  refine (W5_arr m ρ c 4).trans ((Region2.final (V4 m ρ) c).trans ?_)
  have e : Region2.G (V4 m ρ c main_v24) (V4 m ρ c main_v38) (V4 m ρ c main_v51) (V4 m ρ c main_arg4)
      = Region2.G (h0P m c) (a0Pw m c) (a0Pc m c) (wP1 m c) :=
    congr (congr (congr (congrArg Region2.G (w4_v24 m ρ c)) (w4_v38 m ρ c)) (w4_v51 m ρ c)) (w4_arg m ρ c main_arg4)
  exact e
theorem w5_v25 : (W5 m ρ c (Proc.devRef .tc main_v25) : Cert.Net.TA Ideal) = h0A m c :=
  (W5_of_ne m ρ c main_v25 (by decide)).trans (w4_v25 m ρ c)
theorem w5_v64 : (W5 m ρ c (Proc.devRef .tc main_v64) : Cert.Net.TA Ideal) = a0A m c :=
  (W5_of_ne m ρ c main_v64 (by decide)).trans (w4_v64 m ρ c)
theorem w6_v66 : (W6 m ρ c (Proc.devRef .tc main_v66) : Cert.Net.TA Ideal) = h1A m c := by
  refine (W6_arr m ρ c 3).trans ((Region3.final (V5 m ρ) c).trans ?_)
  have e : Region3.G (V5 m ρ c main_v25) (V5 m ρ c main_v64) (V5 m ρ c main_arg6)
      = Region3.G (h0A m c) (a0A m c) (wA1 m c) :=
    congr (congr (congrArg Region3.G (w5_v25 m ρ c)) (w5_v64 m ρ c)) (w5_arg m ρ c main_arg6)
  exact e
theorem w6_v65 : (W6 m ρ c (Proc.devRef .tc main_v65) : Cert.Net.TP Ideal) = h1P m c :=
  (W6_of_ne m ρ c main_v65 (by decide)).trans (w5_v65 m ρ c)
theorem w6_v7 : (W6 m ρ c (Proc.devRef .tc main_v7) : FVec Ideal S100000 .f32)
    = Cert.Net.invP (F := Ideal) (Cert.Net.degPw (F := Ideal) (dW m c)) :=
  (w6_of_w4 m ρ c main_v7).trans ((w4_of_w3 m ρ c main_v7).trans (w3_v7 m ρ c))
theorem w6_v15 : (W6 m ρ c (Proc.devRef .tc main_v15) : FVec Ideal S100000 .f32)
    = Cert.Net.invP (F := Ideal) (Cert.Net.degPc (F := Ideal) (dC m c)) :=
  (w6_of_w4 m ρ c main_v15).trans ((w4_of_w3 m ρ c main_v15).trans (w3_v15 m ρ c))

/-! ## After the last stretch: the second layer's two mean aggregations, and the bias row -/

theorem w7_v79 : (W7 m ρ c (Proc.devRef .tc main_v79) : Cert.Net.TP Ideal) = a1Pw m c := by
  refine (Stretch.s4_v79 (W6 m ρ c)).trans ?_
  rw [w6_v66 m ρ c, w6_arg m ρ c main_arg11, w6_arg m ρ c main_arg12, w6_v7 m ρ c]
  exact Cert.Net.mul_invP _ _ (Cert.Net.degPw_ne_zero _)
theorem w7_v92 : (W7 m ρ c (Proc.devRef .tc main_v92) : Cert.Net.TP Ideal) = a1Pc m c := by
  refine (Stretch.s4_v92 (W6 m ρ c)).trans ?_
  rw [w6_v65 m ρ c, w6_arg m ρ c main_arg15, w6_arg m ρ c main_arg16, w6_v15 m ρ c]
  exact Cert.Net.mul_invP _ _ (Cert.Net.degPc_ne_zero _)
theorem w7_v93 (y : S1x16.Idx) : (W7 m ρ c (Proc.devRef .tc main_v93) : FVec Ideal S1x16 .f32) y
    = bO m c (ix1 (y 1)) := by
  refine (Stretch.s4_v93 (W6 m ρ c) y).trans ?_
  rw [w6_arg m ρ c main_arg10]
theorem w7_v65 : (W7 m ρ c (Proc.devRef .tc main_v65) : Cert.Net.TP Ideal) = h1P m c :=
  (Stretch.s4_keep (W6 m ρ c) main_v65 (by decide)).trans (w6_v65 m ρ c)
theorem w7_arg9 : (W7 m ρ c (Proc.devRef .tc main_arg9) : FVec Ideal S128x16 .f32) = wO m c :=
  (Stretch.s4_keep (W6 m ρ c) main_arg9 (by decide)).trans (w6_arg m ρ c main_arg9)

/-- The output layer over the last boundary's tables, the bias row read back along its 16 entries. -/
theorem w7_out : Region4.G (W7 m ρ c (Proc.devRef .tc main_v65)) (W7 m ρ c (Proc.devRef .tc main_v79))
      (W7 m ρ c (Proc.devRef .tc main_v92)) (W7 m ρ c (Proc.devRef .tc main_arg9)) (W7 m ρ c (Proc.devRef .tc main_v93))
    = Cert.Net.outP (F := Ideal) (Cert.Net.comb3 (F := Ideal) (h1P m c) (a1Pw m c) (a1Pc m c)) (wO m c) (bO m c) := by
  have hb : (fun q : S16.Idx => (W7 m ρ c (Proc.devRef .tc main_v93) : FVec Ideal S1x16 .f32) (ix2 (0 : Fin 1) (q 0)))
      = bO m c := by
    funext q
    exact (w7_v93 m ρ c _).trans (congrArg (bO m c) (eq_ix1 q).symm)
  exact congr (congr (congrArg (Cert.Net.outP (F := Ideal))
    (congr (congr (congrArg (Cert.Net.comb3 (F := Ideal)) (w7_v65 m ρ c)) (w7_v79 m ρ c)) (w7_v92 m ρ c))) (w7_arg9 m ρ c)) hb

end Walk

/-- The result array's final contents are the network of the argument arrays' launch contents. -/
theorem kernel_value (c : Dev nD) :
    (W8 m ρ c (Proc.devRef .tc main_v94) : FVec Ideal S100000x16 .f32)
      = Cert.Net.net (F := Ideal) (m ((c : Thread nD τ).loc main_arg0)) (m ((c : Thread nD τ).loc main_arg1))
          (m ((c : Thread nD τ).loc main_arg3)) (m ((c : Thread nD τ).loc main_arg4)) (m ((c : Thread nD τ).loc main_arg5))
          (m ((c : Thread nD τ).loc main_arg6)) (m ((c : Thread nD τ).loc main_arg9)) (m ((c : Thread nD τ).loc main_arg10))
          (m ((c : Thread nD τ).loc main_arg11)) (m ((c : Thread nD τ).loc main_arg12)) (m ((c : Thread nD τ).loc main_arg13))
          (m ((c : Thread nD τ).loc main_arg14)) (m ((c : Thread nD τ).loc main_arg15)) (m ((c : Thread nD τ).loc main_arg16)) := by
  refine (W8_arr m ρ c 5).trans ((Region4.final (V7 m ρ) c).trans ?_)
  exact w7_out m ρ c

end Cert.KernelIdeal.Chain

end
-- ==== Proof.RefNet.lean ====
/-
  The reference program's result term is the network of Net.lean applied to its argument arrays: the term is the
  network's definitions unfolded.
-/
import proofs.«417135_j31636729102833_2_alg».proof.Proof.Gen.ReferenceIdeal.Run
import proofs.«417135_j31636729102833_2_alg».proof.Proof.Net

noncomputable section

namespace Cert.Net

open Idealize.ShloMosaic Idealize.ShloMosaic.TcCoe Idealize.SL.Sem Cert.ReferenceIdeal
open Cert.ReferenceIdeal.Facts₀ Cert.ReferenceIdeal.Facts

variable {F : FTy → Type} [FloatOps F]

set_option maxRecDepth 16384 in
theorem ref_eq (m : (ℓ : Loc nD τ sig) → Buf (Elt F) ℓ) (c : Dev nD) :
    (Cert.ReferenceIdeal.Value.res_main_v199 m c : FVec F S100000x16 .f32)
      = net (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  unfold Cert.ReferenceIdeal.Value.res_main_v199
  rfl

end Cert.Net

end
-- ==== Proof.lean ====
/-
  Equivalence over the extended reals of a two-layer message-passing network's kernel program (five dense layers
  as kernel regions on row blocks, the gathers and scatter-adds between them on the host) with its plain reference.
  Both programs compute the network of Proof/Net.lean of their argument arrays: the reference's result term is that
  network unfolded (Proof/RefNet.lean); the kernel program's result array is walked through the eight boundaries of
  its @main (Proof/Chain.lean), each region's table read as its dense layer of the tables it was entered with
  (Proof/Region0.lean .. Region4.lean), each host stretch as its aggregations (Proof/Stretch.lean).  The two differ
  only in how a row is divided: the kernel multiplies by the reciprocal of the in-degree plus a small constant, and by
  the named constant one third, where the reference divides; the divisor is never zero (Proof/MeanLaw.lean) and a
  quotient by a nonzero real is the product with its reciprocal at every extended real.  The frames are the generated
  ones; the reference's is its generated run with the result dropped.
-/
import proofs.«417135_j31636729102833_2_alg».proof.Defs
import proofs.«417135_j31636729102833_2_alg».proof.Proof.Gen.Kernel
import proofs.«417135_j31636729102833_2_alg».proof.Proof.Gen.Kernel.Frame
import proofs.«417135_j31636729102833_2_alg».proof.Proof.Gen.KernelIdeal
import proofs.«417135_j31636729102833_2_alg».proof.Proof.Gen.KernelIdeal.Frame
import proofs.«417135_j31636729102833_2_alg».proof.Proof.Gen.ReferenceIdeal
import proofs.«417135_j31636729102833_2_alg».proof.Proof.Gen.ReferenceIdeal.Run
import proofs.«417135_j31636729102833_2_alg».proof.Proof.Gen.Pre_finite_inputs
import proofs.«417135_j31636729102833_2_alg».proof.Proof.KernelRun
import proofs.«417135_j31636729102833_2_alg».proof.Proof.Chain
import proofs.«417135_j31636729102833_2_alg».proof.Proof.RefNet
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two sites of the named constant: the table gives "inv_3" the value one third. -/
theorem preserves : Cert.preserves_Kernel_KernelIdeal :=
  ⟨IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl⟩

/-- Both programs end with the network of the argument arrays in their result array. -/
theorem algebraic : Cert.algebraic_KernelIdeal_ReferenceIdeal := by
  intro m ρ m' ρ' _ hagree
  refine ⟨fun c => Cert.Net.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.Chain.kernel_value m ρ c), (h c).2⟩)
      (Cert.KernelIdeal.Gen.run_named m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13, a14, a15, a16, a17, a18⟩ := hagree c
    refine (Cert.Net.ref_eq m' c).trans ?_
    rw [a0, a1, a3, a4, a5, a6, a9, a10, a11, a12, a13, a14, a15, a16]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
